-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v68)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x8 : S_.BroadcastsInDim S16x8 (![] : Fin 0 → Fin S16x8.rank)
  reducesTo_S16x8_S_d0_1 : S16x8.ReducesTo [0, 1] S_
  bcast_S_S8 : S_.BroadcastsInDim S8 (![] : Fin 0 → Fin S8.rank)
  reducesTo_S8_S_d0 : S8.ReducesTo [0] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S8 .f32) (main_arg6 : FVec F S8x1 .f32) (main_arg7 : FVec F S1 .f32) (main_v13 : IVec S_ 1) (main_v16 : IVec S16x8 1) : IVec S_ 1 :=
  let main_c_5 : IVec S_ 1 := constantI S_ 1 1#1
  let main_v17 : IVec S_ 1 := (fun x v => Host.reduce IntOp.andi x v reducesTo_S16x8_S_d0_1 h_S_) main_v16 main_c_5
  let main_v18 : IVec S_ 1 := andi main_v13 main_v17
  let main_v19 : FVec F S8 .f32 := Host.absf main_arg5
  let main_cst_6 : FVec F S_ .f32 := constant S_ .f32 0x7F800000#32
  let main_v20 : FVec F S8 .f32 := broadcastInDim S8 ![] bcast_S_S8 main_cst_6
  let main_v21 : IVec S8 1 := cmpf .olt main_v19 main_v20
  let main_c_7 : IVec S_ 1 := constantI S_ 1 1#1
  let main_v22 : IVec S_ 1 := (fun x v => Host.reduce IntOp.andi x v reducesTo_S8_S_d0 h_S_) main_v21 main_c_7
  let main_v23 : IVec S_ 1 := andi main_v18 main_v22
  let main_v24 : FVec F S8x1 .f32 := Host.absf main_arg6
  let main_cst_8 : FVec F S_ .f32 := constant S_ .f32 0x7F800000#32
  let main_v25 : FVec F S8x1 .f32 := broadcastInDim S8x1 ![] bcast_S_S8x1 main_cst_8
  let main_v26 : IVec S8x1 1 := cmpf .olt main_v24 main_v25
  let main_c_9 : IVec S_ 1 := constantI S_ 1 1#1
  let main_v27 : IVec S_ 1 := (fun x v => Host.reduce IntOp.andi x v reducesTo_S8x1_S_d0_1 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x16 .f32) (main_arg3 : FVec F S16 .f32) (main_arg4 : FVec F S16x8 .f32) (main_arg5 : FVec F S8 .f32) (main_arg6 : FVec F S8x1 .f32) (main_arg7 : FVec F S1 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x8 .f32 := Host.absf main_arg4
  let main_cst_4 : FVec F S_ .f32 := constant S_ .f32 0x7F800000#32
  let main_v15 : FVec F S16x8 .f32 := broadcastInDim S16x8 ![] bcast_S_S16x8 main_cst_4
  let main_v16 : IVec S16x8 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x8 : Shape := ⟨2, ![100000, 8]⟩
abbrev S5000x8 : Shape := ⟨2, ![5000, 8]⟩
abbrev S3300000x8 : Shape := ⟨2, ![3300000, 8]⟩
abbrev S1x8 : Shape := ⟨2, ![1, 8]⟩
abbrev S1x1 : Shape := ⟨2, ![1, 1]⟩
abbrev S100000x1 : Shape := ⟨2, ![100000, 1]⟩
abbrev S5000x1 : Shape := ⟨2, ![5000, 1]⟩

abbrev nBuf : Space → Nat
  | .hbm => 98
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16x8, .f32⟩
  | .hbm, ⟨5, _⟩ => ⟨S8, .f32⟩
  | .hbm, ⟨6, _⟩ => ⟨S8x1, .f32⟩
  | .hbm, ⟨7, _⟩ => ⟨S1, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S3300000, .i32⟩
  | .hbm, ⟨34, _⟩ => ⟨S3300000, .i1⟩
  | .hbm, ⟨35, _⟩ => ⟨S_, .i32⟩
  | .hbm, ⟨36, _⟩ => ⟨S3300000, .i32⟩
  | .hbm, ⟨37, _⟩ => ⟨S3300000, .i32⟩
  | .hbm, ⟨38, _⟩ => ⟨S3300000, .i32⟩
  | .hbm, ⟨39, _⟩ => ⟨S3300000x1, .i32⟩
  | .hbm, ⟨40, _⟩ => ⟨S3300000, .f32⟩
  | .hbm, ⟨41, _⟩ => ⟨S_, .i32⟩
  | .hbm, ⟨42, _⟩ => ⟨S3300000, .i32⟩
  | .hbm, ⟨43, _⟩ => ⟨S3300000, .i1⟩
  | .hbm, ⟨44, _⟩ => ⟨S_, .i32⟩
  | .hbm, ⟨45, _⟩ => ⟨S3300000, .i32⟩
  | .hbm, ⟨46, _⟩ => ⟨S3300000, .i32⟩
  | .hbm, ⟨47, _⟩ => ⟨S3300000, .i32⟩
  | .hbm, ⟨48, _⟩ => ⟨S3300000x1, .i32⟩
  | .hbm, ⟨49, _⟩ => ⟨S3300000, .f32⟩
  | .hbm, ⟨50, _⟩ => ⟨S3300000, .f32⟩
  | .hbm, ⟨51, _⟩ => ⟨S3300000x1, .f32⟩
  | .hbm, ⟨52, _⟩ => ⟨S100000x16, .f32⟩
  | .hbm, ⟨53, _⟩ => ⟨S_, .i32⟩
  | .hbm, ⟨54, _⟩ => ⟨S3300000, .i32⟩
  | .hbm, ⟨55, _⟩ => ⟨S3300000, .i1⟩
  | .hbm, ⟨56, _⟩ => ⟨S_, .i32⟩
  | .hbm, ⟨57, _⟩ => ⟨S3300000, .i32⟩
  | .hbm, ⟨58, _⟩ => ⟨S3300000, .i32⟩
  | .hbm, ⟨59, _⟩ => ⟨S3300000, .i32⟩
  | .hbm, ⟨60, _⟩ => ⟨S3300000x1, .i32⟩
  | .hbm, ⟨61, _⟩ => ⟨S3300000x16, .f32⟩
  | .hbm, ⟨62, _⟩ => ⟨S3300000x16, .f32⟩
  | .hbm, ⟨63, _⟩ => ⟨S3300000x16, .f32⟩
  | .hbm, ⟨64, _⟩ => ⟨S_, .f32⟩
  | .hbm, ⟨65, _⟩ => ⟨S100000x16, .f32⟩
  | .hbm, ⟨66, _⟩ => ⟨S3300000x1, .i32⟩
  | .hbm, ⟨67, _⟩ => ⟨S100000x16, .f32⟩
  | .hbm, ⟨68, _⟩ => ⟨S1x16, .f32⟩
  | .hbm, ⟨69, _⟩ => ⟨S100000x16, .f32⟩
  | .hbm, ⟨70, _⟩ => ⟨S100000x16, .f32⟩
  | .hbm, ⟨71, _⟩ => ⟨S_, .f32⟩
  | .hbm, ⟨72, _⟩ => ⟨S100000x16, .f32⟩
  | .hbm, ⟨73, _⟩ => ⟨S100000x16, .f32⟩
  | .hbm, ⟨74, _⟩ => ⟨S100000x8, .f32⟩
  | .hbm, ⟨75, _⟩ => ⟨S_, .i32⟩
  | .hbm, ⟨76, _⟩ => ⟨S3300000, .i32⟩
  | .hbm, ⟨77, _⟩ => ⟨S3300000, .i1⟩
  | .hbm, ⟨78, _⟩ => ⟨S_, .i32⟩
  | .hbm, ⟨79, _⟩ => ⟨S3300000, .i32⟩
  | .hbm, ⟨80, _⟩ => ⟨S3300000, .i32⟩
  | .hbm, ⟨81, _⟩ => ⟨S3300000, .i32⟩
  | .hbm, ⟨82, _⟩ => ⟨S3300000x1, .i32⟩
  | .hbm, ⟨83, _⟩ => ⟨S3300000x8, .f32⟩
  | .hbm, ⟨84, _⟩ => ⟨S3300000x8, .f32⟩
  | .hbm, ⟨85, _⟩ => ⟨S3300000x8, .f32⟩
  | .hbm, ⟨86, _⟩ => ⟨S_, .f32⟩
  | .hbm, ⟨87, _⟩ => ⟨S100000x8, .f32⟩
  | .hbm, ⟨88, _⟩ => ⟨S3300000x1, .i32⟩
  | .hbm, ⟨89, _⟩ => ⟨S100000x8, .f32⟩
  | .hbm, ⟨90, _⟩ => ⟨S1x8, .f32⟩
  | .hbm, ⟨91, _⟩ => ⟨S100000x8, .f32⟩
  | .hbm, ⟨92, _⟩ => ⟨S100000x8, .f32⟩
  | .hbm, ⟨93, _⟩ => ⟨S_, .f32⟩
  | .hbm, ⟨94, _⟩ => ⟨S100000x8, .f32⟩
  | .hbm, ⟨95, _⟩ => ⟨S100000x8, .f32⟩
  | .hbm, ⟨96, _⟩ => ⟨S1x1, .f32⟩
  | .hbm, ⟨97, _⟩ => ⟨S100000x1, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S16x8, .f32⟩
  | .local _ .vmem, ⟨8, _⟩ => ⟨S5000x8, .f32⟩
  | .local _ .vmem, ⟨9, _⟩ => ⟨S5000x8, .f32⟩
  | .local _ .vmem, ⟨10, _⟩ => ⟨S5000x8, .f32⟩
  | .local _ .vmem, ⟨11, _⟩ => ⟨S5000x8, .f32⟩
  | .local _ .vmem, ⟨12, _⟩ => ⟨S8x1, .f32⟩
  | .local _ .vmem, ⟨13, _⟩ => ⟨S1x1, .f32⟩
  | .local _ .vmem, ⟨14, _⟩ => ⟨S5000x1, .f32⟩
  | .local _ .vmem, ⟨15, _⟩ => ⟨S5000x1, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_c_11 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_12 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_call2_cst : Ref sig .tc := ⟨.hbm, 93, rfl⟩
abbrev main_call2_v0 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg3_0 : Ref sig .tc := ⟨.vmem, 14, rfl⟩
abbrev cc2_stg3_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem3_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x8 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x8 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x8 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S8x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S5000x16_S5000x16 : S5000x16.ShapeCasts S5000x16
  inb_S16x8_S16x8_0_0 : ∀ a, (![0, 0] : Fin 2 → Nat) a + S16x8.size a ≤ S16x8.size a
  h_S16x8 : 0 < S16x8.numel
  inb_S5000x8_S5000x8_0_0 : ∀ a, (![0, 0] : Fin 2 → Nat) a + S5000x8.size a ≤ S5000x8.size a
  h_S5000x8 : 0 < S5000x8.numel
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  shapeCasts_S1_S1x1 : S1.ShapeCasts S1x1
  shapeCasts_S5000x8_S5000x8 : S5000x8.ShapeCasts S5000x8
  inb_S8x1_S8x1_0_0 : ∀ a, (![0, 0] : Fin 2 → Nat) a + S8x1.size a ≤ S8x1.size a
  h_S8x1 : 0 < S8x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x8_S5000x8_1_0_0_1_n_n_wf : DotDims.WF S5000x16 S16x8 S5000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S5000x8_S8x1_S5000x1_1_0_0_1_n_n_wf : DotDims.WF S5000x8 S8x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x8.size a ≤ S16x8.size a
  hwx1_1 : ∀ i : grid1.Coords, EltTy.bits .f32 = 32 ∨ (Rect.block (s := S16x8) S16x8.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x8.size a ≤ S100000x8.size a
  hwx1_2 : ∀ i : grid1.Coords, EltTy.bits .f32 = 32 ∨ (Rect.block (s := S100000x8) S5000x8.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x8.size a ≤ S100000x8.size a
  hwx2_0 : ∀ i : grid2.Coords, EltTy.bits .f32 = 32 ∨ (Rect.block (s := S100000x8) S5000x8.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S8x1.size a ≤ S8x1.size a
  hwx2_1 : ∀ i : grid2.Coords, EltTy.bits .f32 = 32 ∨ (Rect.block (s := S8x1) S8x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x1.size a ≤ S100000x1.size a
  hwx2_3 : ∀ i : grid2.Coords, EltTy.bits .f32 = 32 ∨ (Rect.block (s := S100000x1) S5000x1.size (cc2_transform_3 i) (hinb2_3 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x8_S5000x8_1_0_0_1_n_n : DotDims S5000x16 S16x8 S5000x8 where
  lhsContracting := [1]
  rhsContracting := [0]
  lhsNonContracting := [0]
  rhsNonContracting := [1]
  lhsBatch := []
  rhsBatch := []
  wf := dot_S5000x16_S16x8_S5000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S5000x8_S8x1_S5000x1_1_0_0_1_n_n : DotDims S5000x8 S8x1 S5000x1 where
  lhsContracting := [1]
  rhsContracting := [0]
  lhsNonContracting := [0]
  rhsNonContracting := [1]
  lhsBatch := []
  rhsBatch := []
  wf := dot_S5000x8_S8x1_S5000x1_1_0_0_1_n_n_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v33) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x8.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S5000x8.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v66) S5000x8.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S8x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v67) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v68) S5000x1.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x8 : Shape := ⟨2, ![16, 8]⟩
abbrev S8 : Shape := ⟨1, ![8]⟩
abbrev S8x1 : Shape := ⟨2, ![8, 1]⟩
abbrev S1 : Shape := ⟨1, ![1]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x8 : Shape := ⟨2, ![100000, 8]⟩
abbrev S3300000x8 : Shape := ⟨2, ![3300000, 8]⟩
abbrev S1x8 : Shape := ⟨2, ![1, 8]⟩
abbrev S100000x1 : Shape := ⟨2, ![100000, 1]⟩
abbrev S1x1 : Shape := ⟨2, ![1, 1]⟩

abbrev nBuf : Space → Nat
  | .hbm => 137
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16x8, .f32⟩
  | 5 => ⟨S8, .f32⟩
  | 6 => ⟨S8x1, .f32⟩
  | 7 => ⟨S1, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S_, .f32⟩
  | 22 => ⟨S100000, .f32⟩
  | 23 => ⟨S100000, .i1⟩
  | 24 => ⟨S_, .f32⟩
  | 25 => ⟨S100000, .f32⟩
  | 26 => ⟨S100000, .f32⟩
  | 27 => ⟨S100000, .f32⟩
  | 28 => ⟨S_, .f32⟩
  | 29 => ⟨S_, .f32⟩
  | 30 => ⟨S100000, .f32⟩
  | 31 => ⟨S100000, .f32⟩
  | 32 => ⟨S_, .i32⟩
  | 33 => ⟨S3300000, .i32⟩
  | 34 => ⟨S3300000, .i1⟩
  | 35 => ⟨S_, .i32⟩
  | 36 => ⟨S3300000, .i32⟩
  | 37 => ⟨S3300000, .i32⟩
  | 38 => ⟨S3300000, .i32⟩
  | 39 => ⟨S3300000x1, .i32⟩
  | 40 => ⟨S3300000, .f32⟩
  | 41 => ⟨S_, .i32⟩
  | 42 => ⟨S3300000, .i32⟩
  | 43 => ⟨S3300000, .i1⟩
  | 44 => ⟨S_, .i32⟩
  | 45 => ⟨S3300000, .i32⟩
  | 46 => ⟨S3300000, .i32⟩
  | 47 => ⟨S3300000, .i32⟩
  | 48 => ⟨S3300000x1, .i32⟩
  | 49 => ⟨S3300000, .f32⟩
  | 50 => ⟨S3300000, .f32⟩
  | 51 => ⟨S100000x16, .f32⟩
  | 52 => ⟨S_, .i32⟩
  | 53 => ⟨S3300000, .i32⟩
  | 54 => ⟨S3300000, .i1⟩
  | 55 => ⟨S_, .i32⟩
  | 56 => ⟨S3300000, .i32⟩
  | 57 => ⟨S3300000, .i32⟩
  | 58 => ⟨S3300000, .i32⟩
  | 59 => ⟨S3300000x1, .i32⟩
  | 60 => ⟨S3300000x16, .f32⟩
  | 61 => ⟨S3300000x1, .f32⟩
  | 62 => ⟨S3300000x16, .f32⟩
  | 63 => ⟨S3300000x16, .f32⟩
  | 64 => ⟨S_, .f32⟩
  | 65 => ⟨S100000x16, .f32⟩
  | 66 => ⟨S3300000x1, .i32⟩
  | 67 => ⟨S100000x16, .f32⟩
  | 68 => ⟨S1x16, .f32⟩
  | 69 => ⟨S100000x16, .f32⟩
  | 70 => ⟨S100000x16, .f32⟩
  | 71 => ⟨S_, .f32⟩
  | 72 => ⟨S100000x16, .f32⟩
  | 73 => ⟨S100000x16, .f32⟩
  | 74 => ⟨S_, .f32⟩
  | 75 => ⟨S3300000, .f32⟩
  | 76 => ⟨S_, .f32⟩
  | 77 => ⟨S100000, .f32⟩
  | 78 => ⟨S3300000x1, .i32⟩
  | 79 => ⟨S100000, .f32⟩
  | 80 => ⟨S_, .f32⟩
  | 81 => ⟨S100000, .f32⟩
  | 82 => ⟨S100000, .i1⟩
  | 83 => ⟨S_, .f32⟩
  | 84 => ⟨S100000, .f32⟩
  | 85 => ⟨S100000, .f32⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S3300000, .i32⟩
  | 93 => ⟨S3300000, .i1⟩
  | 94 => ⟨S_, .i32⟩
  | 95 => ⟨S3300000, .i32⟩
  | 96 => ⟨S3300000, .i32⟩
  | 97 => ⟨S3300000, .i32⟩
  | 98 => ⟨S3300000x1, .i32⟩
  | 99 => ⟨S3300000, .f32⟩
  | 100 => ⟨S_, .i32⟩
  | 101 => ⟨S3300000, .i32⟩
  | 102 => ⟨S3300000, .i1⟩
  | 103 => ⟨S_, .i32⟩
  | 104 => ⟨S3300000, .i32⟩
  | 105 => ⟨S3300000, .i32⟩
  | 106 => ⟨S3300000, .i32⟩
  | 107 => ⟨S3300000x1, .i32⟩
  | 108 => ⟨S3300000, .f32⟩
  | 109 => ⟨S3300000, .f32⟩
  | 110 => ⟨S100000x8, .f32⟩
  | 111 => ⟨S_, .i32⟩
  | 112 => ⟨S3300000, .i32⟩
  | 113 => ⟨S3300000, .i1⟩
  | 114 => ⟨S_, .i32⟩
  | 115 => ⟨S3300000, .i32⟩
  | 116 => ⟨S3300000, .i32⟩
  | 117 => ⟨S3300000, .i32⟩
  | 118 => ⟨S3300000x1, .i32⟩
  | 119 => ⟨S3300000x8, .f32⟩
  | 120 => ⟨S3300000x1, .f32⟩
  | 121 => ⟨S3300000x8, .f32⟩
  | 122 => ⟨S3300000x8, .f32⟩
  | 123 => ⟨S_, .f32⟩
  | 124 => ⟨S100000x8, .f32⟩
  | 125 => ⟨S3300000x1, .i32⟩
  | 126 => ⟨S100000x8, .f32⟩
  | 127 => ⟨S1x8, .f32⟩
  | _ => ⟨S100000x512, .f32⟩

abbrev hbmTy0_1 (i : Nat) : BufTy := match i % 128 with
  | 0 => ⟨S100000x8, .f32⟩
  | 1 => ⟨S100000x8, .f32⟩
  | 2 => ⟨S_, .f32⟩
  | 3 => ⟨S100000x8, .f32⟩
  | 4 => ⟨S100000x8, .f32⟩
  | 5 => ⟨S100000x1, .f32⟩
  | 6 => ⟨S1x1, .f32⟩
  | 7 => ⟨S100000x1, .f32⟩
  | 8 => ⟨S100000x1, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_c_8 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_cst_11 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_cst_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_14 : Ref sig .tc := ⟨.hbm, 87, rfl⟩
abbrev main_call2_v0 : Ref sig .tc := ⟨.hbm, 88, rfl⟩
abbrev main_call2_v1 : Ref sig .tc := ⟨.hbm, 89, rfl⟩
abbrev main_v59 : Ref sig .tc := ⟨.hbm, 90, rfl⟩
abbrev main_c_15 : Ref sig .tc := ⟨.hbm, 91, rfl⟩
abbrev main_v60 : Ref sig .tc := ⟨.hbm, 92, rfl⟩
abbrev main_v61 : Ref sig .tc := ⟨.hbm, 93, rfl⟩
abbrev main_c_16 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_c_17 : Ref sig .tc := ⟨.hbm, 100, rfl⟩
abbrev main_v67 : Ref sig .tc := ⟨.hbm, 101, rfl⟩
abbrev main_v68 : Ref sig .tc := ⟨.hbm, 102, rfl⟩
abbrev main_c_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_c_19 : Ref sig .tc := ⟨.hbm, 111, rfl⟩
abbrev main_v76 : Ref sig .tc := ⟨.hbm, 112, rfl⟩
abbrev main_v77 : Ref sig .tc := ⟨.hbm, 113, rfl⟩
abbrev main_c_20 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_cst_21 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_call3_cst : Ref sig .tc := ⟨.hbm, 130, rfl⟩
abbrev main_call3_v0 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x8_0_1 : S3300000x1.BroadcastsInDim S3300000x8 (![0, 1] : Fin 2 → Fin S3300000x8.rank)
  bcast_S_S100000x8 : S_.BroadcastsInDim S100000x8 (![] : Fin 0 → Fin S100000x8.rank)
  bcast_S8_S1x8_1 : S8.BroadcastsInDim S1x8 (![1] : Fin 1 → Fin S1x8.rank)
  bcast_S1x8_S100000x8_0_1 : S1x8.BroadcastsInDim S100000x8 (![0, 1] : Fin 2 → Fin S100000x8.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x8_S100000x8_1_0_0_1_n_n_wf : DotDims.WF S100000x16 S16x8 S100000x8 [1] [0] [0] [1] [] []
  gather_S100000x8_S3300000x1_S3300000x8_1_0_n_n_0_1_18_wf : GatherDims.WF S100000x8 S3300000x1 S3300000x8 [1] [0] [] [0] [] 1 ![1, 8]
  scatter_S100000x8_S3300000x1_S3300000x8_1_0_0_1_wf : ScatterDims.WF S100000x8 S3300000x1 S3300000x8 [1] [0] [0] 1
  dot_S100000x8_S8x1_S100000x1_1_0_0_1_n_n_wf : DotDims.WF S100000x8 S8x1 S100000x1 [1] [0] [0] [1] [] []

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x8_S100000x8_1_0_0_1_n_n : DotDims S100000x16 S16x8 S100000x8 where
  lhsContracting := [1]
  rhsContracting := [0]
  lhsNonContracting := [0]
  rhsNonContracting := [1]
  lhsBatch := []
  rhsBatch := []
  wf := dot_S100000x16_S16x8_S100000x8_1_0_0_1_n_n_wf
def gather_S100000x8_S3300000x1_S3300000x8_1_0_n_n_0_1_18 : GatherDims S100000x8 S3300000x1 S3300000x8 where
  offsetDims := [1]
  collapsedSliceDims := [0]
  operandBatchingDims := []
  startIndicesBatchingDims := []
  startIndexMap := [0]
  indexVectorDim := 1
  sliceSizes := ![1, 8]
  wf := gather_S100000x8_S3300000x1_S3300000x8_1_0_n_n_0_1_18_wf
def scatter_S100000x8_S3300000x1_S3300000x8_1_0_0_1 : ScatterDims S100000x8 S3300000x1 S3300000x8 where
  updateWindowDims := [1]
  insertedWindowDims := [0]
  scatterDimsToOperandDims := [0]
  indexVectorDim := 1
  wf := scatter_S100000x8_S3300000x1_S3300000x8_1_0_0_1_wf
def dot_S100000x8_S8x1_S100000x1_1_0_0_1_n_n : DotDims S100000x8 S8x1 S100000x1 where
  lhsContracting := [1]
  rhsContracting := [0]
  lhsNonContracting := [0]
  rhsNonContracting := [1]
  lhsBatch := []
  rhsBatch := []
  wf := dot_S100000x8_S8x1_S100000x1_1_0_0_1_n_n_wf

class Facts : Prop extends Facts₀ where

variable [Facts]
-- ==== Proof.LibPlainProduct.lean ====
/-
  A plain matrix product read at one entry, for every size.

  For the dimension numbers of an `M × K` by `K × N` product (contract the left operand's axis 1 with the right
  operand's axis 0, no batch axis: `DotDims.plain M K N`), at the exact instance the entry `(p, j)` of the product
  accumulated into zero is the finite sum `∑ k, a (p, k) · w (k, j)` over the contracted axis, on the extended reals.
  The library states the product as a sum over the contraction's own index type; the one contracted axis identifies
  that type with `Fin K`, and under this identification the left operand is read at `(p, k)` and the right at
  `(k, j)`. Both the kernel's product into a zero accumulator and the host's product are covered. Stated for every
  `M`, `K`, `N`, so a program's printed dimension record with these numbers is an instance by unfolding.
-/
import Idealize.ShloMosaic.PureOps.Ideal.Laws
import Idealize.ShloMosaic.Lib.ValueIdx

noncomputable section

open scoped BigOperators

namespace Cert.LibPlainProduct

open Idealize.ShloMosaic Idealize.ShloMosaic.ValueIdx

variable {M K N : ℕ}

/-- The contraction index of a plain product is its one coordinate, a number below `K`. -/
abbrev contracted (M K N : ℕ) : (DotDims.plain M K N).contr.Idx ≃ Fin K :=
  contrEquiv1 (DotDims.plain M K N) K rfl rfl

/-- At result entry `(p, j)` and contraction position `k` the left operand is read at `(p, k)`. -/
theorem lhsIdx_plain (p : Fin M) (j : Fin N) (k : Fin K) :
    (DotDims.plain M K N).lhsIdx (ix2 p j) ((contracted M K N).symm k) = ix2 p k :=
  funext fun ax => Fin.ext (by
    match ax with
    | ⟨0, _⟩ => rfl
    | ⟨1, _⟩ => exact contrEquiv1_symm_val (DotDims.plain M K N) K rfl rfl k)

/-- And the right operand at `(k, j)`. -/
theorem rhsIdx_plain (p : Fin M) (j : Fin N) (k : Fin K) :
    (DotDims.plain M K N).rhsIdx (ix2 p j) ((contracted M K N).symm k) = ix2 k j :=
  funext fun ax => Fin.ext (by
    match ax with
    | ⟨0, _⟩ => exact contrEquiv1_symm_val (DotDims.plain M K N) K rfl rfl k
    | ⟨1, _⟩ => rfl)

/-- A plain product accumulated into the zero array, at `(p, j)`: the sum over `k` of `a (p, k) · w (k, j)`. -/
theorem matmul_zero_plain_apply {φ₁ φ₂ : FTy} (a : FVec Ideal ⟨2, ![M, K]⟩ φ₁) (w : FVec Ideal ⟨2, ![K, N]⟩ φ₂)
    (prec : Option ContractPrecision) (p : Fin M) (j : Fin N) :
    FloatOps.matmul (DotDims.plain M K N) prec a w (constant ⟨2, ![M, N]⟩ .f32 0x00000000#32) (ix2 p j)
      = ∑ k : Fin K, a (ix2 p k) * w (ix2 k j) := by
  rw [Ideal.matmul_constant_zero_apply, ← Equiv.sum_comp (contracted M K N).symm]
  exact Finset.sum_congr rfl fun k _ => by rw [lhsIdx_plain, rhsIdx_plain]

/-- The host's plain product at `(p, j)`: the same sum, whatever the schedule. -/
theorem dotGeneral_plain_apply {φ₁ φ₂ : FTy} (a : FVec Ideal ⟨2, ![M, K]⟩ φ₁) (w : FVec Ideal ⟨2, ![K, N]⟩ φ₂)
    (prec : Option ContractPrecision) (sched : HostSchedule) (p : Fin M) (j : Fin N) :
    FloatOps.dotGeneral (DotDims.plain M K N) prec sched a w (ix2 p j) = ∑ k : Fin K, a (ix2 p k) * w (ix2 k j) := by
  rw [Ideal.dotGeneral_apply, ← Equiv.sum_comp (contracted M K N).symm]
  exact Finset.sum_congr rfl fun k _ => by rw [lhsIdx_plain, rhsIdx_plain]

end Cert.LibPlainProduct

end
-- ==== Proof.BlockProduct.lean ====
/-
  A block of rows of a matrix product is the product of that block of rows.

  Let `X` be an `M × K` array and `W` a `K × N` array of extended reals. Take `B` rows of `X`, row `p` of the
  block being row `row p` of `X`, round them to any float format (the identity on exact values), and multiply the
  block by `W` (rounded likewise) into a zero accumulator. Entry `(p, j)` of that small product is
  `∑ k, X (row p, k) · W (k, j)`, which is entry `(row p, j)` of the whole product `X · W` as the host computes it:
  both are the same finite sum over the contracted axis, term by term.
-/
import Idealize.ShloMosaic.PureOps.Ideal.Laws
import Idealize.ShloMosaic.Lib.ValueIdx
import proofs.«177607_j58978490909308_1_alg».proof.Proof.LibPlainProduct

noncomputable section

open scoped BigOperators

namespace Cert.BlockProduct

open Idealize.ShloMosaic Idealize.ShloMosaic.ValueIdx

variable {M K N B : ℕ}

/-- The block product at `(p, j)` is the whole product at `(row p, j)`. -/
theorem matmul_rows_eq_dotGeneral {φ₁ φ₂ φ₃ φ₄ : FTy}
    (X : FVec Ideal ⟨2, ![M, K]⟩ φ₁) (W : FVec Ideal ⟨2, ![K, N]⟩ φ₂)
    (a : FVec Ideal ⟨2, ![B, K]⟩ φ₃) (w : FVec Ideal ⟨2, ![K, N]⟩ φ₄) (row : Fin B → Fin M)
    (ha : ∀ p k, (a (ix2 p k) : EReal) = X (ix2 (row p) k)) (hw : ∀ k j, (w (ix2 k j) : EReal) = W (ix2 k j))
    (prec prec' : Option ContractPrecision) (sched : HostSchedule) (p : Fin B) (j : Fin N) :
    FloatOps.matmul (DotDims.plain B K N) prec a w (constant ⟨2, ![B, N]⟩ .f32 0x00000000#32) (ix2 p j)
      = FloatOps.dotGeneral (DotDims.plain M K N) prec' sched X W (ix2 (row p) j) := by
  rw [LibPlainProduct.matmul_zero_plain_apply, LibPlainProduct.dotGeneral_plain_apply]
  exact Finset.sum_congr rfl fun k _ => by rw [ha, hw]

end Cert.BlockProduct

end
-- ==== Proof.Region0.lean ====
/-
  The first projection: after the first kernel call its result array is the matrix product `x · W1`.

  The call runs over 20 grid points; point `t` is handed rows `5000·t … 5000·t + 4999` of the left operand (all 512
  columns) and the whole right operand, rounds both to bf16 (the identity on exact values), multiplies them into a zero
  accumulator and writes the 5000 × 16 block back to the same rows of the result. Entry `(p, q)` of the block is
  `∑ k, X (5000·t + p, k) · W (k, q)`, which is entry `(5000·t + p, q)` of the whole product `X · W`; the 20 blocks tile
  the result's 100000 rows, so after the call the result array IS the whole product of the arrays the call was entered with.
  Everything is stated at arbitrary entry contents `V`, so nothing here depends on what ran before the call.
-/
import proofs.«177607_j58978490909308_1_alg».proof.Proof.Gen.KernelIdeal.Frame
import proofs.«177607_j58978490909308_1_alg».proof.Proof.BlockProduct
import Idealize.ShloMosaic.Lib.Pipeline.Value
import Idealize.ShloMosaic.Lib.ValueIdx

set_option maxRecDepth 16384

noncomputable section

namespace Cert.KernelIdeal.Region0

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product the result is compared with: the host's product of a 100000 × 512 by a 512 × 16 array. -/
abbrev product (X : FVec Ideal S100000x512 .f32) (W : FVec Ideal S512x16 .f32) : FVec Ideal S100000x16 .f32 :=
  Host.dotGeneral (F := Ideal) (DotDims.plain 100000 512 16) none X W

/-- Where the blocks sit: the left operand's and the result's block index is `(t, 0)`, the right operand's `(0, 0)`. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- One block's payload, over any blocks that ARE rows `5000·b + p` of `X` and the whole of `W`. -/
theorem payload_eq (X : FVec Ideal S100000x512 .f32) (W : FVec Ideal S512x16 .f32)
    (x0 : FVec Ideal S5000x512 .f32) (x1 : FVec Ideal S512x16 .f32) (row : Fin 5000 → Fin 100000)
    (h0 : ∀ (p : Fin 5000) (k : Fin 512), x0 (ix2 p k) = X (ix2 (row p) k))
    (h1 : ∀ (k : Fin 512) (q : Fin 16), x1 (ix2 k q) = W (ix2 k q)) (p : Fin 5000) (q : Fin 16) :
    k0_pay1 (F := Ideal) x0 x1 (ix2 p q) = product X W (ix2 (row p) q) := by
  unfold k0_pay1
  exact BlockProduct.matmul_rows_eq_dotGeneral (M := 100000) (K := 512) (N := 16) (B := 5000) X W
    (truncf .bf16 x0 bitsLt_bf16_f32) (truncf .bf16 x1 bitsLt_bf16_f32) row h0 h1 none none .single p q

/-- The row of the array that row `p` of point `t`'s block is. -/
def rowAt (t : Fin cfg0.N) (p : Fin 5000) : Fin 100000 :=
  ⟨t.val * 5000 + p.val, by have := t.isLt; have hN : cfg0.N = 20 := N_0; have := p.isLt; omega⟩

/-- Entry `(p, k)` of the left operand's block at point `t` is entry `(5000·t + p, k)` of its array. -/
theorem left_block (c : Dev nD) (t : Fin cfg0.N) (p : Fin 5000) (k : Fin 512) :
    iblk0 V c 0 t (ix2 p k) = V c (Pipeline.arrRef spec0 0) (ix2 (rowAt t p) k) := by
  obtain ⟨e0, e1, -, -, -, -⟩ := block_indices t
  show V c (Pipeline.arrRef spec0 0) (((cfg0.win 0).blk t).view.emb (ix2 p k)) = _
  refine congrArg (V c (Pipeline.arrRef spec0 0)) (funext fun a => Fin.ext ?_)
  match a with
  | ⟨0, _⟩ => show win0_0.index t (0 : Fin 2) * 5000 + 1 * p.val = t.val * 5000 + p.val; omega
  | ⟨1, _⟩ => show win0_0.index t (1 : Fin 2) * 512 + 1 * k.val = k.val; omega

/-- The right operand's block at every point is its whole array. -/
theorem right_block (c : Dev nD) (t : Fin cfg0.N) (k : Fin 512) (q : Fin 16) :
    iblk0 V c 1 t (ix2 k q) = V c (Pipeline.arrRef spec0 1) (ix2 k q) := by
  obtain ⟨-, -, e2, e3, -, -⟩ := block_indices t
  show V c (Pipeline.arrRef spec0 1) (((cfg0.win 1).blk t).view.emb (ix2 k q)) = _
  refine congrArg (V c (Pipeline.arrRef spec0 1)) (funext fun a => Fin.ext ?_)
  match a with
  | ⟨0, _⟩ => show win0_1.index t (0 : Fin 2) * 512 + 1 * k.val = k.val; omega
  | ⟨1, _⟩ => show win0_1.index t (1 : Fin 2) * 16 + 1 * q.val = q.val; omega

/-- Entry `(p, q)` of the result's block at point `t` is entry `(5000·t + p, q)` of the result array. -/
theorem result_block_index (t : Fin cfg0.N) (p : Fin 5000) (q : Fin 16) :
    ((cfg0.win 2).blk t).view.emb (ix2 p q) = ix2 (rowAt t p) q := by
  obtain ⟨-, -, -, -, e4, e5⟩ := block_indices t
  refine funext fun a => Fin.ext ?_
  match a with
  | ⟨0, _⟩ => show win0_2.index t (0 : Fin 2) * 5000 + 1 * p.val = t.val * 5000 + p.val; omega
  | ⟨1, _⟩ => show win0_2.index t (1 : Fin 2) * 16 + 1 * q.val = q.val; omega

/-- What point `t` writes back is block `t` of the whole product of the arrays the call was entered with. -/
theorem flushed_eq (c : Dev nD) (t : Fin cfg0.N) :
    (dat0 V c).flushed 2 t = ((cfg0.win 2).blk t).view.read (Elt Ideal)
      (product (V c (Pipeline.arrRef spec0 0)) (V c (Pipeline.arrRef spec0 1))) := by
  show (cfg0.win 2).cut (grid0.coords t) ((dat0 V c).after 2 t) = _
  rw [after0_2]
  unfold out0_2
  rw [View.canon_unit_zero origin]
  simp only [View.ld_unit_zero (S := S5000x512) origin, View.ld_unit_zero (S := S512x16) origin]
  funext j
  obtain ⟨p, q, rfl⟩ : ∃ (p : Fin 5000) (q : Fin 16), j = ix2 p q := ⟨j 0, j 1, eq_ix2 j⟩
  refine (payload_eq (V c (Pipeline.arrRef spec0 0)) (V c (Pipeline.arrRef spec0 1)) (iblk0 V c 0 t) (iblk0 V c 1 t)
    (rowAt t) (left_block V c t) (right_block V c t) p q).trans ?_
  show _ = product (V c (Pipeline.arrRef spec0 0)) (V c (Pipeline.arrRef spec0 1)) (((cfg0.win 2).blk t).view.emb (ix2 p q))
  rw [result_block_index]

/-- An index of the result array is in point `t`'s block iff each coordinate is in the block's range on its axis. -/
theorem mem_block (t : Fin cfg0.N) (i : S100000x16.Idx) :
    i ∈ ((cfg0.win 2).blk t).view.set ↔ ∀ a : Fin 2, win0_2.index t a * S5000x16.size a ≤ (i a).val ∧ (i a).val < win0_2.index t a * S5000x16.size a + S5000x16.size a := by
  show i ∈ ((View.whole main_v33).slice (win0_2.rect t)).set ↔ _
  rw [View.set_slice_whole, Rect.mem_set_unit]
  exact Iff.rfl

/-- Every row of the result is in the block of the point `row / 5000`. -/
theorem covered (i : S100000x16.Idx) :
    ∃ t : Fin cfg0.N, (cfg0.win 2).flush t = true ∧ i ∈ ((cfg0.win 2).blk t).view.set := by
  have hN : cfg0.N = 20 := N_0
  have hi0 : (i 0).val < 100000 := (i 0).isLt
  have hi1 : (i 1).val < 16 := (i 1).isLt
  obtain ⟨t, ht⟩ : ∃ t : Fin cfg0.N, t.val = (i 0).val / 5000 := ⟨⟨(i 0).val / 5000, by rw [hN]; omega⟩, rfl⟩
  obtain ⟨-, -, -, -, e4, e5⟩ := block_indices t
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 16 ≤ (i 1).val ∧ (i 1).val < win0_2.index t (1 : Fin 2) * 16 + 16; omega

/-- After the call the result array is the whole product of the arrays the call was entered with. -/
theorem result_eq (c : Dev nD) :
    (dat0 V c).arrAt 2 cfg0.N = product (V c (Pipeline.arrRef spec0 0)) (V c (Pipeline.arrRef spec0 1)) :=
  (dat0 V c).arrAt_eq_of_cover 2 _ (fun t _ => flushed_eq V c t) covered

end Cert.KernelIdeal.Region0

end
-- ==== Proof.Region1.lean ====
/-
  The second projection: after the second kernel call its result array is the matrix product `h1 · W2`.

  The call runs over 20 grid points; point `t` is handed rows `5000·t … 5000·t + 4999` of the left operand (all 16
  columns) and the whole right operand, rounds both to bf16 (the identity on exact values), multiplies them into a zero
  accumulator and writes the 5000 × 8 block back to the same rows of the result. Entry `(p, q)` of the block is
  `∑ k, X (5000·t + p, k) · W (k, q)`, which is entry `(5000·t + p, q)` of the whole product `X · W`; the 20 blocks tile
  the result's 100000 rows, so after the call the result array IS the whole product of the arrays the call was entered with.
  Everything is stated at arbitrary entry contents `V`, so nothing here depends on what ran before the call.
-/
import proofs.«177607_j58978490909308_1_alg».proof.Proof.Gen.KernelIdeal.Frame
import proofs.«177607_j58978490909308_1_alg».proof.Proof.BlockProduct
import Idealize.ShloMosaic.Lib.Pipeline.Value
import Idealize.ShloMosaic.Lib.ValueIdx

set_option maxRecDepth 16384

noncomputable section

namespace Cert.KernelIdeal.Region1

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product the result is compared with: the host's product of a 100000 × 16 by a 16 × 8 array. -/
abbrev product (X : FVec Ideal S100000x16 .f32) (W : FVec Ideal S16x8 .f32) : FVec Ideal S100000x8 .f32 :=
  Host.dotGeneral (F := Ideal) (DotDims.plain 100000 16 8) none X W

/-- Where the blocks sit: the left operand's and the result's block index is `(t, 0)`, the right operand's `(0, 0)`. -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- One block's payload, over any blocks that ARE rows `row p` of `X` and the whole of `W` (the body first casts the
    left block to its own shape, which changes nothing). -/
theorem payload_eq (X : FVec Ideal S100000x16 .f32) (W : FVec Ideal S16x8 .f32)
    (x0 : FVec Ideal S5000x16 .f32) (x1 : FVec Ideal S16x8 .f32) (row : Fin 5000 → Fin 100000)
    (h0 : ∀ (p : Fin 5000) (k : Fin 16), x0 (ix2 p k) = X (ix2 (row p) k))
    (h1 : ∀ (k : Fin 16) (q : Fin 8), x1 (ix2 k q) = W (ix2 k q)) (p : Fin 5000) (q : Fin 8) :
    k1_pay1 (F := Ideal) x0 x1 (ix2 p q) = product X W (ix2 (row p) q) := by
  unfold k1_pay1
  exact BlockProduct.matmul_rows_eq_dotGeneral (M := 100000) (K := 16) (N := 8) (B := 5000) X W
    (truncf .bf16 (shapeCast S5000x16 x0 shapeCasts_S5000x16_S5000x16) bitsLt_bf16_f32) (truncf .bf16 x1 bitsLt_bf16_f32) row
    (fun p k => (congrFun (shapeCast_self x0 shapeCasts_S5000x16_S5000x16) (ix2 p k)).trans (h0 p k)) h1 none none .single p q

/-- The row of the array that row `p` of point `t`'s block is. -/
def rowAt (t : Fin cfg1.N) (p : Fin 5000) : Fin 100000 :=
  ⟨t.val * 5000 + p.val, by have := t.isLt; have hN : cfg1.N = 20 := N_1; have := p.isLt; omega⟩

/-- Entry `(p, k)` of the left operand's block at point `t` is entry `(5000·t + p, k)` of its array. -/
theorem left_block (c : Dev nD) (t : Fin cfg1.N) (p : Fin 5000) (k : Fin 16) :
    iblk1 V c 0 t (ix2 p k) = V c (Pipeline.arrRef spec1 0) (ix2 (rowAt t p) k) := by
  obtain ⟨e0, e1, -, -, -, -⟩ := block_indices t
  show V c (Pipeline.arrRef spec1 0) (((cfg1.win 0).blk t).view.emb (ix2 p k)) = _
  refine congrArg (V c (Pipeline.arrRef spec1 0)) (funext fun a => Fin.ext ?_)
  match a with
  | ⟨0, _⟩ => show win1_0.index t (0 : Fin 2) * 5000 + 1 * p.val = t.val * 5000 + p.val; omega
  | ⟨1, _⟩ => show win1_0.index t (1 : Fin 2) * 16 + 1 * k.val = k.val; omega

/-- The right operand's block at every point is its whole array. -/
theorem right_block (c : Dev nD) (t : Fin cfg1.N) (k : Fin 16) (q : Fin 8) :
    iblk1 V c 1 t (ix2 k q) = V c (Pipeline.arrRef spec1 1) (ix2 k q) := by
  obtain ⟨-, -, e2, e3, -, -⟩ := block_indices t
  show V c (Pipeline.arrRef spec1 1) (((cfg1.win 1).blk t).view.emb (ix2 k q)) = _
  refine congrArg (V c (Pipeline.arrRef spec1 1)) (funext fun a => Fin.ext ?_)
  match a with
  | ⟨0, _⟩ => show win1_1.index t (0 : Fin 2) * 16 + 1 * k.val = k.val; omega
  | ⟨1, _⟩ => show win1_1.index t (1 : Fin 2) * 8 + 1 * q.val = q.val; omega

/-- Entry `(p, q)` of the result's block at point `t` is entry `(5000·t + p, q)` of the result array. -/
theorem result_block_index (t : Fin cfg1.N) (p : Fin 5000) (q : Fin 8) :
    ((cfg1.win 2).blk t).view.emb (ix2 p q) = ix2 (rowAt t p) q := by
  obtain ⟨-, -, -, -, e4, e5⟩ := block_indices t
  refine funext fun a => Fin.ext ?_
  match a with
  | ⟨0, _⟩ => show win1_2.index t (0 : Fin 2) * 5000 + 1 * p.val = t.val * 5000 + p.val; omega
  | ⟨1, _⟩ => show win1_2.index t (1 : Fin 2) * 8 + 1 * q.val = q.val; omega

/-- What point `t` writes back is block `t` of the whole product of the arrays the call was entered with. -/
theorem flushed_eq (c : Dev nD) (t : Fin cfg1.N) :
    (dat1 V c).flushed 2 t = ((cfg1.win 2).blk t).view.read (Elt Ideal)
      (product (V c (Pipeline.arrRef spec1 0)) (V c (Pipeline.arrRef spec1 1))) := by
  show (cfg1.win 2).cut (grid1.coords t) ((dat1 V c).after 2 t) = _
  rw [after1_2]
  unfold out1_2
  rw [View.canon_unit_zero origin]
  simp only [View.ld_unit_zero (S := S5000x16) origin, View.ld_unit_zero (S := S16x8) origin]
  funext j
  obtain ⟨p, q, rfl⟩ : ∃ (p : Fin 5000) (q : Fin 8), j = ix2 p q := ⟨j 0, j 1, eq_ix2 j⟩
  refine (payload_eq (V c (Pipeline.arrRef spec1 0)) (V c (Pipeline.arrRef spec1 1)) (iblk1 V c 0 t) (iblk1 V c 1 t)
    (rowAt t) (left_block V c t) (right_block V c t) p q).trans ?_
  show _ = product (V c (Pipeline.arrRef spec1 0)) (V c (Pipeline.arrRef spec1 1)) (((cfg1.win 2).blk t).view.emb (ix2 p q))
  rw [result_block_index]

/-- An index of the result array is in point `t`'s block iff each coordinate is in the block's range on its axis. -/
theorem mem_block (t : Fin cfg1.N) (i : S100000x8.Idx) :
    i ∈ ((cfg1.win 2).blk t).view.set ↔ ∀ a : Fin 2, win1_2.index t a * S5000x8.size a ≤ (i a).val ∧ (i a).val < win1_2.index t a * S5000x8.size a + S5000x8.size a := by
  show i ∈ ((View.whole main_v50).slice (win1_2.rect t)).set ↔ _
  rw [View.set_slice_whole, Rect.mem_set_unit]
  exact Iff.rfl

/-- Every row of the result is in the block of the point `row / 5000`. -/
theorem covered (i : S100000x8.Idx) :
    ∃ t : Fin cfg1.N, (cfg1.win 2).flush t = true ∧ i ∈ ((cfg1.win 2).blk t).view.set := by
  have hN : cfg1.N = 20 := N_1
  have hi0 : (i 0).val < 100000 := (i 0).isLt
  have hi1 : (i 1).val < 8 := (i 1).isLt
  obtain ⟨t, ht⟩ : ∃ t : Fin cfg1.N, t.val = (i 0).val / 5000 := ⟨⟨(i 0).val / 5000, by rw [hN]; omega⟩, rfl⟩
  obtain ⟨-, -, -, -, e4, e5⟩ := block_indices t
  refine ⟨t, flush1_2 t, ?_⟩
  rw [mem_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 8 ≤ (i 1).val ∧ (i 1).val < win1_2.index t (1 : Fin 2) * 8 + 8; omega

/-- After the call the result array is the whole product of the arrays the call was entered with. -/
theorem result_eq (c : Dev nD) :
    (dat1 V c).arrAt 2 cfg1.N = product (V c (Pipeline.arrRef spec1 0)) (V c (Pipeline.arrRef spec1 1)) :=
  (dat1 V c).arrAt_eq_of_cover 2 _ (fun t _ => flushed_eq V c t) covered

end Cert.KernelIdeal.Region1

end
-- ==== Proof.Region2.lean ====
/-
  The last projection: after the third kernel call its result array is the matrix product `h2 · Wl` plus the bias.

  The call runs over 20 grid points; point `t` is handed rows `5000·t … 5000·t + 4999` of the left operand (all 8
  columns) and the whole right operand, rounds both to bf16 (the identity on exact values), multiplies them into a zero
  accumulator, adds the one bias number to every entry, and writes the 5000 × 1 block back to the same rows of the result. Entry `(p, q)` of the block is
  `∑ k, X (5000·t + p, k) · W (k, q)` plus the bias, which is entry `(5000·t + p, q)` of the whole product `X · W` plus the bias; the 20 blocks tile
  the result's 100000 rows, so after the call the result array IS that sum of the arrays the call was entered with.
  Everything is stated at arbitrary entry contents `V`, so nothing here depends on what ran before the call.
-/
import proofs.«177607_j58978490909308_1_alg».proof.Proof.Gen.KernelIdeal.Frame
import proofs.«177607_j58978490909308_1_alg».proof.Proof.BlockProduct
import Idealize.ShloMosaic.Lib.Pipeline.Value
import Idealize.ShloMosaic.Lib.ValueIdx
import Idealize.ShloMosaic.Lib.ValueLayout

set_option maxRecDepth 16384

noncomputable section

namespace Cert.KernelIdeal.Region2

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The whole product the result is compared with: the host's product of a 100000 × 8 by an 8 × 1 array. -/
abbrev product (X : FVec Ideal S100000x8 .f32) (W : FVec Ideal S8x1 .f32) : FVec Ideal S100000x1 .f32 :=
  Host.dotGeneral (F := Ideal) (DotDims.plain 100000 8 1) none X W

/-- The product with the one bias number `b (0, 0)` added to every entry. -/
abbrev biased (X : FVec Ideal S100000x8 .f32) (W : FVec Ideal S8x1 .f32) (b : FVec Ideal S1x1 .f32) : FVec Ideal S100000x1 .f32 :=
  fun i => product X W i + b (ix2 0 0)

/-- Where the blocks sit: the left operand's and the result's block index is `(t, 0)`, the right operand's and the
    bias's `(0, 0)`. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_3.index t (0 : Fin 2) = t.val ∧ win2_3.index t (1 : Fin 2) = 0
    ∧ win2_2.index t (0 : Fin 2) = 0 ∧ win2_2.index t (1 : Fin 2) = 0 :=
  (by decide +kernel : ∀ t : Fin grid2.N, _)

/-- One block's payload, over any blocks that ARE rows `row p` of `X` and the whole of `W`: the block product plus the
    bias block's one number, which the body spreads over the block's 5000 rows. -/
theorem payload_eq (X : FVec Ideal S100000x8 .f32) (W : FVec Ideal S8x1 .f32)
    (x0 : FVec Ideal S5000x8 .f32) (x1 : FVec Ideal S8x1 .f32) (x2 : FVec Ideal S1x1 .f32) (row : Fin 5000 → Fin 100000)
    (h0 : ∀ (p : Fin 5000) (k : Fin 8), x0 (ix2 p k) = X (ix2 (row p) k))
    (h1 : ∀ (k : Fin 8) (q : Fin 1), x1 (ix2 k q) = W (ix2 k q)) (p : Fin 5000) (q : Fin 1) :
    k2_pay1 (F := Ideal) x0 x1 x2 (ix2 p q) = product X W (ix2 (row p) q) + x2 (ix2 0 0) := by
  unfold k2_pay1
  refine (addf_apply _ _ (ix2 p q)).trans ?_
  refine congrArg₂ (fun a b : EReal => a + b) ?_ ?_
  · exact BlockProduct.matmul_rows_eq_dotGeneral (M := 100000) (K := 8) (N := 1) (B := 5000) X W
      (truncf .bf16 (shapeCast S5000x8 x0 shapeCasts_S5000x8_S5000x8) bitsLt_bf16_f32) (truncf .bf16 x1 bitsLt_bf16_f32) row
      (fun p k => (congrFun (shapeCast_self x0 shapeCasts_S5000x8_S5000x8) (ix2 p k)).trans (h0 p k)) h1 none none .single p q
  · exact (broadcastTo_apply (shapeCast S1x1 x2 shapeCasts_S1x1_S1x1) broadcasts_S1x1_S5000x1 (ix2 p q) (ix2 0 0)
      (fun a => by fin_cases a <;> rfl)).trans (congrFun (shapeCast_self x2 shapeCasts_S1x1_S1x1) (ix2 0 0))

/-- The row of the array that row `p` of point `t`'s block is. -/
def rowAt (t : Fin cfg2.N) (p : Fin 5000) : Fin 100000 :=
  ⟨t.val * 5000 + p.val, by have := t.isLt; have hN : cfg2.N = 20 := N_2; have := p.isLt; omega⟩

/-- Entry `(p, k)` of the left operand's block at point `t` is entry `(5000·t + p, k)` of its array. -/
theorem left_block (c : Dev nD) (t : Fin cfg2.N) (p : Fin 5000) (k : Fin 8) :
    iblk2 V c 0 t (ix2 p k) = V c (Pipeline.arrRef spec2 0) (ix2 (rowAt t p) k) := by
  obtain ⟨e0, e1, -, -, -, -, -, -⟩ := block_indices t
  show V c (Pipeline.arrRef spec2 0) (((cfg2.win 0).blk t).view.emb (ix2 p k)) = _
  refine congrArg (V c (Pipeline.arrRef spec2 0)) (funext fun a => Fin.ext ?_)
  match a with
  | ⟨0, _⟩ => show win2_0.index t (0 : Fin 2) * 5000 + 1 * p.val = t.val * 5000 + p.val; omega
  | ⟨1, _⟩ => show win2_0.index t (1 : Fin 2) * 8 + 1 * k.val = k.val; omega

/-- The right operand's block at every point is its whole array. -/
theorem right_block (c : Dev nD) (t : Fin cfg2.N) (k : Fin 8) (q : Fin 1) :
    iblk2 V c 1 t (ix2 k q) = V c (Pipeline.arrRef spec2 1) (ix2 k q) := by
  obtain ⟨-, -, e2, e3, -, -, -, -⟩ := block_indices t
  show V c (Pipeline.arrRef spec2 1) (((cfg2.win 1).blk t).view.emb (ix2 k q)) = _
  refine congrArg (V c (Pipeline.arrRef spec2 1)) (funext fun a => Fin.ext ?_)
  match a with
  | ⟨0, _⟩ => show win2_1.index t (0 : Fin 2) * 8 + 1 * k.val = k.val; omega
  | ⟨1, _⟩ => show win2_1.index t (1 : Fin 2) * 1 + 1 * q.val = q.val; omega

/-- The bias's block at every point is its whole 1 × 1 array. -/
theorem bias_block (c : Dev nD) (t : Fin cfg2.N) :
    iblk2 V c 2 t (ix2 0 0) = V c (Pipeline.arrRef spec2 2) (ix2 0 0) := by
  obtain ⟨-, -, -, -, -, -, e6, e7⟩ := block_indices t
  show V c (Pipeline.arrRef spec2 2) (((cfg2.win 2).blk t).view.emb (ix2 0 0)) = _
  refine congrArg (V c (Pipeline.arrRef spec2 2)) (funext fun a => Fin.ext ?_)
  match a with
  | ⟨0, _⟩ => show win2_2.index t (0 : Fin 2) * 1 + 1 * 0 = 0; omega
  | ⟨1, _⟩ => show win2_2.index t (1 : Fin 2) * 1 + 1 * 0 = 0; omega

/-- Entry `(p, q)` of the result's block at point `t` is entry `(5000·t + p, q)` of the result array. -/
theorem result_block_index (t : Fin cfg2.N) (p : Fin 5000) (q : Fin 1) :
    ((cfg2.win 3).blk t).view.emb (ix2 p q) = ix2 (rowAt t p) q := by
  obtain ⟨-, -, -, -, e4, e5, -, -⟩ := block_indices t
  refine funext fun a => Fin.ext ?_
  match a with
  | ⟨0, _⟩ => show win2_3.index t (0 : Fin 2) * 5000 + 1 * p.val = t.val * 5000 + p.val; omega
  | ⟨1, _⟩ => show win2_3.index t (1 : Fin 2) * 1 + 1 * q.val = q.val; omega

/-- What point `t` writes back is block `t` of the biased product of the arrays the call was entered with. -/
theorem flushed_eq (c : Dev nD) (t : Fin cfg2.N) :
    (dat2 V c).flushed 3 t = ((cfg2.win 3).blk t).view.read (Elt Ideal)
      (biased (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero origin]
  simp only [View.ld_unit_zero (S := S5000x8) origin, View.ld_unit_zero (S := S8x1) origin, View.ld_unit_zero (S := S1x1) origin]
  funext j
  obtain ⟨p, q, rfl⟩ : ∃ (p : Fin 5000) (q : Fin 1), j = ix2 p q := ⟨j 0, j 1, eq_ix2 j⟩
  refine (payload_eq (V c (Pipeline.arrRef spec2 0)) (V c (Pipeline.arrRef spec2 1)) (iblk2 V c 0 t) (iblk2 V c 1 t) (iblk2 V c 2 t)
    (rowAt t) (left_block V c t) (right_block V c t) p q).trans ?_
  show _ = product (V c (Pipeline.arrRef spec2 0)) (V c (Pipeline.arrRef spec2 1)) (((cfg2.win 3).blk t).view.emb (ix2 p q))
    + V c (Pipeline.arrRef spec2 2) (ix2 0 0)
  rw [result_block_index, bias_block]

/-- An index of the result array is in point `t`'s block iff each coordinate is in the block's range on its axis. -/
theorem mem_block (t : Fin cfg2.N) (i : S100000x1.Idx) :
    i ∈ ((cfg2.win 3).blk t).view.set ↔ ∀ a : Fin 2, win2_3.index t a * S5000x1.size a ≤ (i a).val ∧ (i a).val < win2_3.index t a * S5000x1.size a + S5000x1.size a := by
  show i ∈ ((View.whole main_v68).slice (win2_3.rect t)).set ↔ _
  rw [View.set_slice_whole, Rect.mem_set_unit]
  exact Iff.rfl

/-- Every row of the result is in the block of the point `row / 5000`. -/
theorem covered (i : S100000x1.Idx) :
    ∃ t : Fin cfg2.N, (cfg2.win 3).flush t = true ∧ i ∈ ((cfg2.win 3).blk t).view.set := by
  have hN : cfg2.N = 20 := N_2
  have hi0 : (i 0).val < 100000 := (i 0).isLt
  have hi1 : (i 1).val < 1 := (i 1).isLt
  obtain ⟨t, ht⟩ : ∃ t : Fin cfg2.N, t.val = (i 0).val / 5000 := ⟨⟨(i 0).val / 5000, by rw [hN]; omega⟩, rfl⟩
  obtain ⟨-, -, -, -, e4, e5, -, -⟩ := block_indices t
  refine ⟨t, flush2_3 t, ?_⟩
  rw [mem_block]
  intro a
  match a with
  | ⟨0, _⟩ => show win2_3.index t (0 : Fin 2) * 5000 ≤ (i 0).val ∧ (i 0).val < win2_3.index t (0 : Fin 2) * 5000 + 5000; omega
  | ⟨1, _⟩ => show win2_3.index t (1 : Fin 2) * 1 ≤ (i 1).val ∧ (i 1).val < win2_3.index t (1 : Fin 2) * 1 + 1; omega

/-- After the call the result array is the biased product of the arrays the call was entered with. -/
theorem result_eq (c : Dev nD) :
    (dat2 V c).arrAt 3 cfg2.N
      = biased (V c (Pipeline.arrRef spec2 0)) (V c (Pipeline.arrRef spec2 1)) (V c (Pipeline.arrRef spec2 2)) :=
  (dat2 V c).arrAt_eq_of_cover 3 _ (fun t _ => flushed_eq V c t) covered

end Cert.KernelIdeal.Region2

end
-- ==== Proof.Spec.lean ====
/-
  The graph convolution network as one function of its inputs.

  The network has 100000 nodes and 3200000 directed edges given as a 2 × 3200000 array of endpoints; every node also
  gets a self loop, so there are 3300000 edges in all. With `d(v)` the number of edges that end in `v`, every edge
  `(s, t)` carries the weight `n(s, t) = d(s)^(-1/2) · d(t)^(-1/2)` (a node that no edge ends in counts as weight 0). One
  layer sends a feature array `h` (one row per node) to `relu (A h + b)`, where `(A h)(t) = ∑ over edges (s, t) of
  n(s, t) · h(s)` and `b` is added to every row. The network is
  `out = layer₂ (layer₁ (x · W1) · W2) · Wl + bl`, with three matrix products. A negative endpoint counts from the
  end of the node axis, as array indexing does.

  The definitions below spell these pieces with the host operations that compute them, generic in the float family, so
  that both programs' values can be stated over the SAME terms: the edge lists `sources`, `targets`; the wrap of
  negative endpoints `wrapped`; the in-degree `degree`; its inverse square root `invSqrtDegree`; the edge weights as
  a column `edgeWeights`; one aggregation layer at width 16 and at width 8; and the whole network `network`.
-/
import proofs.«177607_j58978490909308_1_alg».proof.Proof.Gen.ReferenceIdeal

noncomputable section

namespace Cert.Spec

open Cert.ReferenceIdeal Cert.ReferenceIdeal.Gen Idealize.ShloMosaic

variable {F : FTy → Type} [FloatOps F]

/-- Row 0 of the endpoint array followed by every node once: the source of each edge, self loops last. -/
def sources (e : (⟨S2x3200000, .i32⟩ : BufTy).Contents (Elt F)) : (⟨S3300000, .i32⟩ : BufTy).Contents (Elt F) :=
  concatenate S3300000 0 [⟨S3200000, (shapeCast _ (extractStridedSlice S1x3200000 ![0, 0] e slices_S2x3200000_S1x3200000_0_0) shapeCasts_S1x3200000_S3200000)⟩, ⟨S100000, (iotaInDim S100000 32 0)⟩] concatenates_S3200000_S100000_S3300000_d0

/-- Row 1 of the endpoint array followed by every node once: the target of each edge, self loops last. -/
def targets (e : (⟨S2x3200000, .i32⟩ : BufTy).Contents (Elt F)) : (⟨S3300000, .i32⟩ : BufTy).Contents (Elt F) :=
  concatenate S3300000 0 [⟨S3200000, (shapeCast _ (extractStridedSlice S1x3200000 ![1, 0] e slices_S2x3200000_S1x3200000_1_0) shapeCasts_S1x3200000_S3200000)⟩, ⟨S100000, (iotaInDim S100000 32 0)⟩] concatenates_S3200000_S100000_S3300000_d0

/-- A negative endpoint `v` stands for node `v + 100000`. -/
def wrapped (v : (⟨S3300000, .i32⟩ : BufTy).Contents (Elt F)) : (⟨S3300000, .i32⟩ : BufTy).Contents (Elt F) :=
  select (cmpi .slt v (broadcastInDim S3300000 ![] bcast_S_S3300000 (constantI S_ 32 0#32))) (addi v (broadcastInDim S3300000 ![] bcast_S_S3300000 (constantI S_ 32 100000#32))) v

/-- The number of edges ending in each node: ones added up at the targets. -/
def degree (d : (⟨S3300000, .i32⟩ : BufTy).Contents (Elt F)) : (⟨S100000, .f32⟩ : BufTy).Contents (Elt F) :=
  Host.scatterAdd scatter_S100000_S3300000x1_S3300000_n_0_0_1 (broadcastInDim S100000 ![] bcast_S_S100000 (constant S_ .f32 0x00000000#32)) (broadcastInDim S3300000x1 ![0] bcast_S3300000_S3300000x1_0 d) (broadcastInDim S3300000 ![] bcast_S_S3300000 (constant S_ .f32 0x3F800000#32))

/-- `d(v)^(-1/2)` where `d(v) > 0` (the degree kept away from zero under the root), and 0 elsewhere. -/
def invSqrtDegree (d : (⟨S3300000, .i32⟩ : BufTy).Contents (Elt F)) : (⟨S100000, .f32⟩ : BufTy).Contents (Elt F) :=
  select (cmpf .ogt (degree d) (broadcastInDim S100000 ![] bcast_S_S100000 (constant S_ .f32 0x00000000#32))) (Host.rsqrt (maximumf (degree d) (broadcastInDim S100000 ![] bcast_S_S100000 (constant S_ .f32 0x2B8CBCCC#32)))) (broadcastInDim S100000 ![] bcast_S_S100000 (id (constant S_ .f32 0x00000000#32)))

/-- The weight of every edge, `d(s)^(-1/2) · d(t)^(-1/2)`, as a column. -/
def edgeWeights (s d : (⟨S3300000, .i32⟩ : BufTy).Contents (Elt F)) : (⟨S3300000x1, .f32⟩ : BufTy).Contents (Elt F) :=
  broadcastInDim S3300000x1 ![0] bcast_S3300000_S3300000x1_0 (mulf (Host.gather gather_S100000_S3300000x1_S3300000_n_0_n_n_0_1_1 (invSqrtDegree d) (broadcastInDim S3300000x1 ![0] bcast_S3300000_S3300000x1_0 (wrapped s))) (Host.gather gather_S100000_S3300000x1_S3300000_n_0_n_n_0_1_1 (invSqrtDegree d) (broadcastInDim S3300000x1 ![0] bcast_S3300000_S3300000x1_0 (wrapped d))))

/-- One layer at width 16: gather the rows of `h` at the sources, weight them, add them up at the targets, add the
    bias to every row, and clamp below at zero. -/
def layer16 (s d : (⟨S3300000, .i32⟩ : BufTy).Contents (Elt F)) (n : (⟨S3300000x1, .f32⟩ : BufTy).Contents (Elt F)) (h : (⟨S100000x16, .f32⟩ : BufTy).Contents (Elt F)) (b : (⟨S16, .f32⟩ : BufTy).Contents (Elt F)) : (⟨S100000x16, .f32⟩ : BufTy).Contents (Elt F) :=
  maximumf (addf (Host.scatterAdd scatter_S100000x16_S3300000x1_S3300000x16_1_0_0_1 (broadcastInDim S100000x16 ![] bcast_S_S100000x16 (constant S_ .f32 0x00000000#32)) (broadcastInDim S3300000x1 ![0] bcast_S3300000_S3300000x1_0 d) (mulf (Host.gather gather_S100000x16_S3300000x1_S3300000x16_1_0_n_n_0_1_116 h (broadcastInDim S3300000x1 ![0] bcast_S3300000_S3300000x1_0 (wrapped s))) (broadcastInDim S3300000x16 ![0, 1] bcast_S3300000x1_S3300000x16_0_1 n))) (broadcastInDim S100000x16 ![0, 1] bcast_S1x16_S100000x16_0_1 (broadcastInDim S1x16 ![1] bcast_S16_S1x16_1 b))) (broadcastInDim S100000x16 ![] bcast_S_S100000x16 (constant S_ .f32 0x00000000#32))

/-- The same layer at width 8. -/
def layer8 (s d : (⟨S3300000, .i32⟩ : BufTy).Contents (Elt F)) (n : (⟨S3300000x1, .f32⟩ : BufTy).Contents (Elt F)) (h : (⟨S100000x8, .f32⟩ : BufTy).Contents (Elt F)) (b : (⟨S8, .f32⟩ : BufTy).Contents (Elt F)) : (⟨S100000x8, .f32⟩ : BufTy).Contents (Elt F) :=
  maximumf (addf (Host.scatterAdd scatter_S100000x8_S3300000x1_S3300000x8_1_0_0_1 (broadcastInDim S100000x8 ![] bcast_S_S100000x8 (constant S_ .f32 0x00000000#32)) (broadcastInDim S3300000x1 ![0] bcast_S3300000_S3300000x1_0 d) (mulf (Host.gather gather_S100000x8_S3300000x1_S3300000x8_1_0_n_n_0_1_18 h (broadcastInDim S3300000x1 ![0] bcast_S3300000_S3300000x1_0 (wrapped s))) (broadcastInDim S3300000x8 ![0, 1] bcast_S3300000x1_S3300000x8_0_1 n))) (broadcastInDim S100000x8 ![0, 1] bcast_S1x8_S100000x8_0_1 (broadcastInDim S1x8 ![1] bcast_S8_S1x8_1 b))) (broadcastInDim S100000x8 ![] bcast_S_S100000x8 (constant S_ .f32 0x00000000#32))

/-- The last bias, one number, added to every row of a one-column array. -/
def lastBias (bl : (⟨S1, .f32⟩ : BufTy).Contents (Elt F)) : (⟨S100000x1, .f32⟩ : BufTy).Contents (Elt F) :=
  broadcastInDim S100000x1 ![0, 1] bcast_S1x1_S100000x1_0_1 (broadcastInDim S1x1 ![1] bcast_S1_S1x1_1 bl)

/-- The three projections, as the host computes a matrix product. -/
def project1 (x : (⟨S100000x512, .f32⟩ : BufTy).Contents (Elt F)) (W1 : (⟨S512x16, .f32⟩ : BufTy).Contents (Elt F)) : (⟨S100000x16, .f32⟩ : BufTy).Contents (Elt F) :=
  Host.dotGeneral dot_S100000x512_S512x16_S100000x16_1_0_0_1_n_n none x W1
def project2 (h : (⟨S100000x16, .f32⟩ : BufTy).Contents (Elt F)) (W2 : (⟨S16x8, .f32⟩ : BufTy).Contents (Elt F)) : (⟨S100000x8, .f32⟩ : BufTy).Contents (Elt F) :=
  Host.dotGeneral dot_S100000x16_S16x8_S100000x8_1_0_0_1_n_n none h W2
def project3 (h : (⟨S100000x8, .f32⟩ : BufTy).Contents (Elt F)) (Wl : (⟨S8x1, .f32⟩ : BufTy).Contents (Elt F)) : (⟨S100000x1, .f32⟩ : BufTy).Contents (Elt F) :=
  Host.dotGeneral dot_S100000x8_S8x1_S100000x1_1_0_0_1_n_n none h Wl

/-- The whole network. -/
def network (x : (⟨S100000x512, .f32⟩ : BufTy).Contents (Elt F)) (e : (⟨S2x3200000, .i32⟩ : BufTy).Contents (Elt F)) (W1 : (⟨S512x16, .f32⟩ : BufTy).Contents (Elt F)) (b1 : (⟨S16, .f32⟩ : BufTy).Contents (Elt F))
    (W2 : (⟨S16x8, .f32⟩ : BufTy).Contents (Elt F)) (b2 : (⟨S8, .f32⟩ : BufTy).Contents (Elt F)) (Wl : (⟨S8x1, .f32⟩ : BufTy).Contents (Elt F)) (bl : (⟨S1, .f32⟩ : BufTy).Contents (Elt F)) : (⟨S100000x1, .f32⟩ : BufTy).Contents (Elt F) :=
  addf (project3 (layer8 (sources e) (targets e) (edgeWeights (sources e) (targets e))
      (project2 (layer16 (sources e) (targets e) (edgeWeights (sources e) (targets e)) (project1 x W1) b1) W2) b2) Wl)
    (lastBias bl)

end Cert.Spec

end
-- ==== Proof.KHost.lean ====
/-
  What the host operations of the kernel's program compute, stretch by stretch.

  The program's host operations fall into three stretches, one before each kernel call. Each stretch is read here as a
  function of the buffer contents `W` it starts from, whatever they are: the first stretch builds the edge lists and
  the edge weights out of the endpoint array; the second turns the first projection into the first layer's output;
  the third turns the second projection into the second layer's output and lays the last bias out as a 1 × 1 array.
  Every buffer a stretch does not write is left as it was. The values are stated with the pieces of `Spec`, which
  spell the same host operations.
-/
import proofs.«177607_j58978490909308_1_alg».proof.Proof.Gen.KernelIdeal.Launch
import proofs.«177607_j58978490909308_1_alg».proof.Proof.Spec
import Idealize.ShloMosaic.Lib.StableHlo.Run

set_option maxRecDepth 16384

noncomputable section

namespace Cert.KernelIdeal.HostValues

open Cert.KernelIdeal Cert.KernelIdeal.Gen
open Idealize.ShloMosaic Idealize.ShloMosaic.TcCoe Idealize.ShloMosaic.StableHlo
open Idealize.SL.Sem

variable {F : FTy → Type} [FloatOps F]
variable (W : Valuation τ sig (Elt F))

/-! ## Before the first call -/

/-- The buffer contents after the first stretch. -/
abbrev after0 : Valuation τ sig (Elt F) := after hostOps0_2 (after hostOps0_1 (after hostOps0 W))

set_option maxHeartbeats 2000000 in
theorem after0_sources : after0 W (Proc.devRef .tc main_v3) = Spec.sources (W (Proc.devRef .tc main_arg1)) := by
  dsimp only [after0, hostOps0_2, hostOps0_1, hostOps0]
  after_results
  rfl

set_option maxHeartbeats 2000000 in
theorem after0_targets : after0 W (Proc.devRef .tc main_v6) = Spec.targets (W (Proc.devRef .tc main_arg1)) := by
  dsimp only [after0, hostOps0_2, hostOps0_1, hostOps0]
  after_results
  rfl

set_option maxHeartbeats 4000000 in
theorem after0_weights : after0 W (Proc.devRef .tc main_v32)
    = Spec.edgeWeights (Spec.sources (W (Proc.devRef .tc main_arg1))) (Spec.targets (W (Proc.devRef .tc main_arg1))) := by
  dsimp only [after0, hostOps0_2, hostOps0_1, hostOps0]
  after_results_simp
  rfl

/-- The first stretch writes none of the program's inputs. -/
theorem after0_main_arg0 : after0 W (Proc.devRef .tc main_arg0) = W (Proc.devRef .tc main_arg0) := by
  dsimp only [after0, hostOps0_2, hostOps0_1, hostOps0]
  after_results
theorem after0_main_arg2 : after0 W (Proc.devRef .tc main_arg2) = W (Proc.devRef .tc main_arg2) := by
  dsimp only [after0, hostOps0_2, hostOps0_1, hostOps0]
  after_results
theorem after0_main_arg3 : after0 W (Proc.devRef .tc main_arg3) = W (Proc.devRef .tc main_arg3) := by
  dsimp only [after0, hostOps0_2, hostOps0_1, hostOps0]
  after_results
theorem after0_main_arg4 : after0 W (Proc.devRef .tc main_arg4) = W (Proc.devRef .tc main_arg4) := by
  dsimp only [after0, hostOps0_2, hostOps0_1, hostOps0]
  after_results
theorem after0_main_arg5 : after0 W (Proc.devRef .tc main_arg5) = W (Proc.devRef .tc main_arg5) := by
  dsimp only [after0, hostOps0_2, hostOps0_1, hostOps0]
  after_results
theorem after0_main_arg6 : after0 W (Proc.devRef .tc main_arg6) = W (Proc.devRef .tc main_arg6) := by
  dsimp only [after0, hostOps0_2, hostOps0_1, hostOps0]
  after_results
theorem after0_main_arg7 : after0 W (Proc.devRef .tc main_arg7) = W (Proc.devRef .tc main_arg7) := by
  dsimp only [after0, hostOps0_2, hostOps0_1, hostOps0]
  after_results

/-! ## Between the first and the second call -/

/-- The buffer contents after the second stretch. -/
abbrev after1 : Valuation τ sig (Elt F) := after hostOps1_1 (after hostOps1 W)

set_option maxHeartbeats 2000000 in
/-- The first layer's output, from the first projection `main_v33`, the edge lists, the edge weights and the bias. -/
theorem after1_layer : after1 W (Proc.devRef .tc main_v49)
    = Spec.layer16 (W (Proc.devRef .tc main_v3)) (W (Proc.devRef .tc main_v6)) (W (Proc.devRef .tc main_v32))
        (W (Proc.devRef .tc main_v33)) (W (Proc.devRef .tc main_arg3)) := by
  dsimp only [after1, hostOps1_1, hostOps1]
  after_results
  rfl

/-- The second stretch leaves the edge lists, the edge weights and the remaining inputs as they were. -/
theorem after1_main_v3 : after1 W (Proc.devRef .tc main_v3) = W (Proc.devRef .tc main_v3) := by
  dsimp only [after1, hostOps1_1, hostOps1]
  after_results
theorem after1_main_v6 : after1 W (Proc.devRef .tc main_v6) = W (Proc.devRef .tc main_v6) := by
  dsimp only [after1, hostOps1_1, hostOps1]
  after_results
theorem after1_main_v32 : after1 W (Proc.devRef .tc main_v32) = W (Proc.devRef .tc main_v32) := by
  dsimp only [after1, hostOps1_1, hostOps1]
  after_results
theorem after1_main_arg4 : after1 W (Proc.devRef .tc main_arg4) = W (Proc.devRef .tc main_arg4) := by
  dsimp only [after1, hostOps1_1, hostOps1]
  after_results
theorem after1_main_arg5 : after1 W (Proc.devRef .tc main_arg5) = W (Proc.devRef .tc main_arg5) := by
  dsimp only [after1, hostOps1_1, hostOps1]
  after_results
theorem after1_main_arg6 : after1 W (Proc.devRef .tc main_arg6) = W (Proc.devRef .tc main_arg6) := by
  dsimp only [after1, hostOps1_1, hostOps1]
  after_results
theorem after1_main_arg7 : after1 W (Proc.devRef .tc main_arg7) = W (Proc.devRef .tc main_arg7) := by
  dsimp only [after1, hostOps1_1, hostOps1]
  after_results

/-! ## Between the second and the third call -/

/-- The buffer contents after the third stretch. -/
abbrev after2 : Valuation τ sig (Elt F) := after hostOps2_2 (after hostOps2_1 (after hostOps2 W))

set_option maxHeartbeats 2000000 in
/-- The second layer's output, from the second projection `main_v50`, the edge lists, the edge weights and the bias. -/
theorem after2_layer : after2 W (Proc.devRef .tc main_v66)
    = Spec.layer8 (W (Proc.devRef .tc main_v3)) (W (Proc.devRef .tc main_v6)) (W (Proc.devRef .tc main_v32))
        (W (Proc.devRef .tc main_v50)) (W (Proc.devRef .tc main_arg5)) := by
  dsimp only [after2, hostOps2_2, hostOps2_1, hostOps2]
  after_results
  rfl

/-- The last bias, its one number laid out as a 1 × 1 array. -/
theorem after2_bias : after2 W (Proc.devRef .tc main_v67)
    = shapeCast S1x1 (W (Proc.devRef .tc main_arg7)) shapeCasts_S1_S1x1 := by
  dsimp only [after2, hostOps2_2, hostOps2_1, hostOps2]
  after_results
  rfl

/-- The third stretch leaves the last weight array as it was. -/
theorem after2_main_arg6 : after2 W (Proc.devRef .tc main_arg6) = W (Proc.devRef .tc main_arg6) := by
  dsimp only [after2, hostOps2_2, hostOps2_1, hostOps2]
  after_results

end Cert.KernelIdeal.HostValues

end
-- ==== Proof.KValue.lean ====
/-
  The kernel's program computes the network.

  The program is three kernel calls among three stretches of host operations. The contents of every buffer at each
  boundary are a fold through the program from the launch memory. Reading that fold back to front: the result buffer
  is what the third call leaves, the biased product of the second layer's output with the last weights; the second
  layer's output is the third stretch's value of what the second call leaves, the product of the first layer's output
  with the second weights; and so on down to the inputs. The edge lists and the edge weights are computed once, before
  the first call, and every later stretch and call leaves them as they are. Put together, the result is
  `Spec.network` of the inputs: the same pieces in the same order, with each kernel call in the place of one matrix
  product.
-/
import proofs.«177607_j58978490909308_1_alg».proof.Proof.Gen.KernelIdeal.Frame
import proofs.«177607_j58978490909308_1_alg».proof.Proof.Region0
import proofs.«177607_j58978490909308_1_alg».proof.Proof.Region1
import proofs.«177607_j58978490909308_1_alg».proof.Proof.Region2
import proofs.«177607_j58978490909308_1_alg».proof.Proof.KHost
import proofs.«177607_j58978490909308_1_alg».proof.Proof.Spec
import Idealize.ShloMosaic.Lib.Pipeline.Value
import Idealize.ShloMosaic.Lib.ValueIdx

set_option maxRecDepth 16384

noncomputable section

namespace Cert.KernelIdeal.Network

open Cert.KernelIdeal Cert.KernelIdeal.Gen
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-! ## What never changes: the inputs, the edge lists, the edge weights -/

/-- The edge lists and weights as the first stretch leaves them, over the launch memory. -/
abbrev srcs (c : Dev nD) := Spec.sources (F := Ideal) (m ((c : Thread nD τ).loc main_arg1))
abbrev tgts (c : Dev nD) := Spec.targets (F := Ideal) (m ((c : Thread nD τ).loc main_arg1))
abbrev wts (c : Dev nD) := Spec.edgeWeights (F := Ideal) (srcs m c) (tgts m c)

/-! ### At the first call's entry -/

theorem W3_arg0 (c : Dev nD) : W3 m ρ c (Proc.devRef .tc main_arg0) = m ((c : Thread nD τ).loc main_arg0) :=
  HostValues.after0_main_arg0 (W0 m ρ c)
theorem W3_arg2 (c : Dev nD) : W3 m ρ c (Proc.devRef .tc main_arg2) = m ((c : Thread nD τ).loc main_arg2) :=
  HostValues.after0_main_arg2 (W0 m ρ c)
theorem W3_arg3 (c : Dev nD) : W3 m ρ c (Proc.devRef .tc main_arg3) = m ((c : Thread nD τ).loc main_arg3) :=
  HostValues.after0_main_arg3 (W0 m ρ c)
theorem W3_arg4 (c : Dev nD) : W3 m ρ c (Proc.devRef .tc main_arg4) = m ((c : Thread nD τ).loc main_arg4) :=
  HostValues.after0_main_arg4 (W0 m ρ c)
theorem W3_arg5 (c : Dev nD) : W3 m ρ c (Proc.devRef .tc main_arg5) = m ((c : Thread nD τ).loc main_arg5) :=
  HostValues.after0_main_arg5 (W0 m ρ c)
theorem W3_arg6 (c : Dev nD) : W3 m ρ c (Proc.devRef .tc main_arg6) = m ((c : Thread nD τ).loc main_arg6) :=
  HostValues.after0_main_arg6 (W0 m ρ c)
theorem W3_arg7 (c : Dev nD) : W3 m ρ c (Proc.devRef .tc main_arg7) = m ((c : Thread nD τ).loc main_arg7) :=
  HostValues.after0_main_arg7 (W0 m ρ c)
theorem W3_srcs (c : Dev nD) : W3 m ρ c (Proc.devRef .tc main_v3) = srcs m c := HostValues.after0_sources (W0 m ρ c)
theorem W3_tgts (c : Dev nD) : W3 m ρ c (Proc.devRef .tc main_v6) = tgts m c := HostValues.after0_targets (W0 m ρ c)
theorem W3_wts (c : Dev nD) : W3 m ρ c (Proc.devRef .tc main_v32) = wts m c := HostValues.after0_weights (W0 m ρ c)

/-! ### At the first call's exit: it writes only its result -/

theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)
theorem W4_arg6 (c : Dev nD) : W4 m ρ c (Proc.devRef .tc main_arg6) = m ((c : Thread nD τ).loc main_arg6) :=
  (W4_of_ne m ρ c main_arg6 (by decide)).trans (W3_arg6 m ρ c)
theorem W4_arg7 (c : Dev nD) : W4 m ρ c (Proc.devRef .tc main_arg7) = m ((c : Thread nD τ).loc main_arg7) :=
  (W4_of_ne m ρ c main_arg7 (by decide)).trans (W3_arg7 m ρ c)
theorem W4_srcs (c : Dev nD) : W4 m ρ c (Proc.devRef .tc main_v3) = srcs m c :=
  (W4_of_ne m ρ c main_v3 (by decide)).trans (W3_srcs m ρ c)
theorem W4_tgts (c : Dev nD) : W4 m ρ c (Proc.devRef .tc main_v6) = tgts m c :=
  (W4_of_ne m ρ c main_v6 (by decide)).trans (W3_tgts m ρ c)
theorem W4_wts (c : Dev nD) : W4 m ρ c (Proc.devRef .tc main_v32) = wts m c :=
  (W4_of_ne m ρ c main_v32 (by decide)).trans (W3_wts m ρ c)

/-! ### At the second call's entry and exit -/

theorem W6_arg4 (c : Dev nD) : W6 m ρ c (Proc.devRef .tc main_arg4) = m ((c : Thread nD τ).loc main_arg4) :=
  (HostValues.after1_main_arg4 (W4 m ρ c)).trans (W4_arg4 m ρ c)
theorem W6_arg5 (c : Dev nD) : W6 m ρ c (Proc.devRef .tc main_arg5) = m ((c : Thread nD τ).loc main_arg5) :=
  (HostValues.after1_main_arg5 (W4 m ρ c)).trans (W4_arg5 m ρ c)
theorem W6_arg6 (c : Dev nD) : W6 m ρ c (Proc.devRef .tc main_arg6) = m ((c : Thread nD τ).loc main_arg6) :=
  (HostValues.after1_main_arg6 (W4 m ρ c)).trans (W4_arg6 m ρ c)
theorem W6_arg7 (c : Dev nD) : W6 m ρ c (Proc.devRef .tc main_arg7) = m ((c : Thread nD τ).loc main_arg7) :=
  (HostValues.after1_main_arg7 (W4 m ρ c)).trans (W4_arg7 m ρ c)
theorem W6_srcs (c : Dev nD) : W6 m ρ c (Proc.devRef .tc main_v3) = srcs m c :=
  (HostValues.after1_main_v3 (W4 m ρ c)).trans (W4_srcs m ρ c)
theorem W6_tgts (c : Dev nD) : W6 m ρ c (Proc.devRef .tc main_v6) = tgts m c :=
  (HostValues.after1_main_v6 (W4 m ρ c)).trans (W4_tgts m ρ c)
theorem W6_wts (c : Dev nD) : W6 m ρ c (Proc.devRef .tc main_v32) = wts m c :=
  (HostValues.after1_main_v32 (W4 m ρ c)).trans (W4_wts m ρ c)

theorem W7_arg5 (c : Dev nD) : W7 m ρ c (Proc.devRef .tc main_arg5) = m ((c : Thread nD τ).loc main_arg5) :=
  (W7_of_ne m ρ c main_arg5 (by decide)).trans (W6_arg5 m ρ c)
theorem W7_arg6 (c : Dev nD) : W7 m ρ c (Proc.devRef .tc main_arg6) = m ((c : Thread nD τ).loc main_arg6) :=
  (W7_of_ne m ρ c main_arg6 (by decide)).trans (W6_arg6 m ρ c)
theorem W7_arg7 (c : Dev nD) : W7 m ρ c (Proc.devRef .tc main_arg7) = m ((c : Thread nD τ).loc main_arg7) :=
  (W7_of_ne m ρ c main_arg7 (by decide)).trans (W6_arg7 m ρ c)
theorem W7_srcs (c : Dev nD) : W7 m ρ c (Proc.devRef .tc main_v3) = srcs m c :=
  (W7_of_ne m ρ c main_v3 (by decide)).trans (W6_srcs m ρ c)
theorem W7_tgts (c : Dev nD) : W7 m ρ c (Proc.devRef .tc main_v6) = tgts m c :=
  (W7_of_ne m ρ c main_v6 (by decide)).trans (W6_tgts m ρ c)
theorem W7_wts (c : Dev nD) : W7 m ρ c (Proc.devRef .tc main_v32) = wts m c :=
  (W7_of_ne m ρ c main_v32 (by decide)).trans (W6_wts m ρ c)

/-! ## The three calls and the two layers, in order -/

/-- The first call leaves the first projection in its result buffer. -/
theorem first_projection (c : Dev nD) : W4 m ρ c (Proc.devRef .tc main_v33)
    = Spec.project1 (F := Ideal) (m ((c : Thread nD τ).loc main_arg0)) (m ((c : Thread nD τ).loc main_arg2)) :=
  (W4_arr m ρ c 2).trans ((Region0.result_eq (V3 m ρ) c).trans
    (congrArg₂ (fun X W => Host.dotGeneral (F := Ideal) (DotDims.plain 100000 512 16) none X W) (W3_arg0 m ρ c) (W3_arg2 m ρ c)))

/-- The second stretch makes the first layer's output of it. -/
theorem first_layer (c : Dev nD) : W6 m ρ c (Proc.devRef .tc main_v49)
    = Spec.layer16 (F := Ideal) (srcs m c) (tgts m c) (wts m c)
        (Spec.project1 (F := Ideal) (m ((c : Thread nD τ).loc main_arg0)) (m ((c : Thread nD τ).loc main_arg2)))
        (m ((c : Thread nD τ).loc main_arg3)) := by
  refine (HostValues.after1_layer (W4 m ρ c)).trans ?_
  rw [W4_srcs, W4_tgts, W4_wts, first_projection, W4_arg3]

/-- The second call leaves the second projection in its result buffer. -/
theorem second_projection (c : Dev nD) : W7 m ρ c (Proc.devRef .tc main_v50)
    = Spec.project2 (F := Ideal) (Spec.layer16 (F := Ideal) (srcs m c) (tgts m c) (wts m c)
        (Spec.project1 (F := Ideal) (m ((c : Thread nD τ).loc main_arg0)) (m ((c : Thread nD τ).loc main_arg2)))
        (m ((c : Thread nD τ).loc main_arg3))) (m ((c : Thread nD τ).loc main_arg4)) :=
  (W7_arr m ρ c 2).trans ((Region1.result_eq (V6 m ρ) c).trans
    (congrArg₂ (fun X W => Host.dotGeneral (F := Ideal) (DotDims.plain 100000 16 8) none X W) (first_layer m ρ c) (W6_arg4 m ρ c)))

/-- The third stretch makes the second layer's output of it. -/
theorem second_layer (c : Dev nD) : W10 m ρ c (Proc.devRef .tc main_v66)
    = Spec.layer8 (F := Ideal) (srcs m c) (tgts m c) (wts m c)
        (Spec.project2 (F := Ideal) (Spec.layer16 (F := Ideal) (srcs m c) (tgts m c) (wts m c)
          (Spec.project1 (F := Ideal) (m ((c : Thread nD τ).loc main_arg0)) (m ((c : Thread nD τ).loc main_arg2)))
          (m ((c : Thread nD τ).loc main_arg3))) (m ((c : Thread nD τ).loc main_arg4)))
        (m ((c : Thread nD τ).loc main_arg5)) := by
  refine (HostValues.after2_layer (W7 m ρ c)).trans ?_
  rw [W7_srcs, W7_tgts, W7_wts, second_projection, W7_arg5]

theorem W10_arg6 (c : Dev nD) : W10 m ρ c (Proc.devRef .tc main_arg6) = m ((c : Thread nD τ).loc main_arg6) :=
  (HostValues.after2_main_arg6 (W7 m ρ c)).trans (W7_arg6 m ρ c)

/-- The last bias laid out as a 1 × 1 array. -/
theorem W10_bias (c : Dev nD) : W10 m ρ c (Proc.devRef .tc main_v67)
    = shapeCast S1x1 (m ((c : Thread nD τ).loc main_arg7)) shapeCasts_S1_S1x1 := by
  refine (HostValues.after2_bias (W7 m ρ c)).trans ?_
  rw [W7_arg7]

/-- A one-element array cast to 1 × 1 holds its one number at `(0, 0)`. -/
theorem bias_number (b : FVec Ideal S1 .f32) : shapeCast S1x1 b shapeCasts_S1_S1x1 (ix2 0 0) = b (ix1 0) :=
  shapeCast_apply b shapeCasts_S1_S1x1 (ix2 0 0) (ix1 0) rfl

/-- And the reference's layout of the last bias holds the same number in every row. -/
theorem lastBias_apply (b : FVec Ideal S1 .f32) (i : S100000x1.Idx) : Spec.lastBias (F := Ideal) b i = b (ix1 0) := by
  unfold Spec.lastBias
  refine (broadcastInDim_apply _ _ _ i (ix2 0 0) (fun a => by fin_cases a <;> rfl)).trans ?_
  exact broadcastInDim_apply _ _ b (ix2 0 0) (ix1 0) (fun a => by fin_cases a; rfl)

/-- The biased product depends only on the values of its three operands. -/
theorem biased_congr {X X' : FVec Ideal S100000x8 .f32} {W W' : FVec Ideal S8x1 .f32} {b b' : FVec Ideal S1x1 .f32}
    (hX : X = X') (hW : W = W') (hb : b = b') : Region2.biased X W b = Region2.biased X' W' b' := by
  subst hX hW hb; rfl

/-- The third call's biased product is the reference's last step: the host product plus the bias laid out over the rows. -/
theorem biased_eq_last (L2 : FVec Ideal S100000x8 .f32) (Wl : FVec Ideal S8x1 .f32) (bl : FVec Ideal S1 .f32) :
    Region2.biased L2 Wl (shapeCast S1x1 bl shapeCasts_S1_S1x1)
      = addf (Spec.project3 (F := Ideal) L2 Wl) (Spec.lastBias (F := Ideal) bl) := by
  funext i
  refine Eq.trans ?_ (addf_apply (Spec.project3 (F := Ideal) L2 Wl) (Spec.lastBias (F := Ideal) bl) i).symm
  exact congrArg₂ (fun a b : EReal => a + b) (rfl : Region2.product L2 Wl i = Spec.project3 (F := Ideal) L2 Wl i)
    ((bias_number bl).trans (lastBias_apply bl i).symm)

/-- The network is its last step applied to the second layer's output. -/
theorem network_unfold (x : FVec Ideal S100000x512 .f32) (e : (⟨S2x3200000, .i32⟩ : BufTy).Contents (Elt Ideal))
    (W1 : FVec Ideal S512x16 .f32) (b1 : FVec Ideal S16 .f32) (W2 : FVec Ideal S16x8 .f32) (b2 : FVec Ideal S8 .f32)
    (Wl : FVec Ideal S8x1 .f32) (bl : FVec Ideal S1 .f32) :
    Spec.network (F := Ideal) x e W1 b1 W2 b2 Wl bl
      = (addf (Spec.project3 (F := Ideal) (Spec.layer8 (F := Ideal) (Spec.sources e) (Spec.targets e)
          (Spec.edgeWeights (Spec.sources e) (Spec.targets e))
          (Spec.project2 (F := Ideal) (Spec.layer16 (F := Ideal) (Spec.sources e) (Spec.targets e)
            (Spec.edgeWeights (Spec.sources e) (Spec.targets e)) (Spec.project1 (F := Ideal) x W1) b1) W2) b2) Wl)
        (Spec.lastBias (F := Ideal) bl) : FVec Ideal S100000x1 .f32) := by
  unfold Spec.network; rfl

set_option maxHeartbeats 400000 in
/-- THE RESULT: the result buffer ends holding the network of the inputs. -/
theorem result_eq (c : Dev nD) : W11 m ρ c (Proc.devRef .tc main_v68)
    = Spec.network (F := Ideal) (m ((c : Thread nD τ).loc main_arg0)) (m ((c : Thread nD τ).loc main_arg1))
        (m ((c : Thread nD τ).loc main_arg2)) (m ((c : Thread nD τ).loc main_arg3))
        (m ((c : Thread nD τ).loc main_arg4)) (m ((c : Thread nD τ).loc main_arg5))
        (m ((c : Thread nD τ).loc main_arg6)) (m ((c : Thread nD τ).loc main_arg7)) := by
  refine (W11_arr m ρ c 3).trans ((Region2.result_eq (V10 m ρ) c).trans ?_)
  refine (biased_congr (second_layer m ρ c) (W10_arg6 m ρ c) (W10_bias m ρ c)).trans ?_
  refine (biased_eq_last _ _ _).trans ?_
  exact (network_unfold _ _ _ _ _ _ _ _).symm

end Cert.KernelIdeal.Network

end
-- ==== Proof.RefSpec.lean ====
/-
  The reference computes the network: its result, as the generated run states it, is `Spec.network` of its inputs.
  The run's term is the network's definition with every piece written out, so unfolding the pieces closes it.
-/
import proofs.«177607_j58978490909308_1_alg».proof.Proof.RefRunP
import proofs.«177607_j58978490909308_1_alg».proof.Proof.Spec

noncomputable section

namespace Cert.RefSpec

open Cert.ReferenceIdeal Cert.ReferenceIdeal.Gen Idealize.ShloMosaic Idealize.ShloMosaic.TcCoe Idealize.SL.Sem

variable {F : FTy → Type} [FloatOps F]

set_option maxRecDepth 16384 in
set_option maxHeartbeats 4000000 in
theorem result_eq (m : (ℓ : Loc nD τ sig) → Buf (Elt F) ℓ) (c : Dev nD) :
    Cert.ReferenceIdeal.ValueP.res_main_v96 m c
      = Spec.network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.ValueP.res_main_v96 Spec.network Spec.project1 Spec.project2 Spec.project3 Spec.lastBias
    Spec.layer8 Spec.layer16 Spec.edgeWeights Spec.invSqrtDegree Spec.degree Spec.wrapped Spec.sources Spec.targets
  rfl

end Cert.RefSpec

end
-- ==== Proof.lean ====
/-
  The certificate of the two-layer graph convolution network.

  The kernel's program and the reference compute the same function of the inputs, `Spec.network`: an edge weight
  `d(s)^(-1/2) · d(t)^(-1/2)` per edge from the in-degrees, two aggregation layers `relu (A (h · W) + b)`, and a last
  projection plus a bias. The reference does every matrix product as one host product and computes the edge weights
  once per layer; the kernel's program computes them once and does each product as a kernel call over 20 blocks of 5000
  rows, rounding the operands to bf16 on the way in, which changes nothing on exact values. A block of rows of a product
  is the product of that block of rows (`BlockProduct`), so each call leaves the whole product in its result buffer
  (`Region0`, `Region1`, `Region2`); the host stretches between the calls are the reference's own operations
  (`KHost`); so the result buffer ends at `Spec.network` of the inputs (`KValue`), which is also what the reference's
  run ends at (`RefSpec`). No algebra beyond reordering nothing: both sides are the same sums term by term, so the
  precondition is never opened. The frames are the generated ones; the ideal pass rewrote nothing, so `preserves` is
  trivial.
-/
import proofs.«177607_j58978490909308_1_alg».proof.Defs
import proofs.«177607_j58978490909308_1_alg».proof.Proof.Gen.Kernel
import proofs.«177607_j58978490909308_1_alg».proof.Proof.Gen.Kernel.Skeleton
import proofs.«177607_j58978490909308_1_alg».proof.Proof.Gen.Kernel.Launch
import proofs.«177607_j58978490909308_1_alg».proof.Proof.Gen.Kernel.Points
import proofs.«177607_j58978490909308_1_alg».proof.Proof.Gen.Kernel.Frame
import proofs.«177607_j58978490909308_1_alg».proof.Proof.Gen.KernelIdeal
import proofs.«177607_j58978490909308_1_alg».proof.Proof.Gen.KernelIdeal.Skeleton
import proofs.«177607_j58978490909308_1_alg».proof.Proof.Gen.KernelIdeal.Launch
import proofs.«177607_j58978490909308_1_alg».proof.Proof.Gen.KernelIdeal.Points
import proofs.«177607_j58978490909308_1_alg».proof.Proof.Gen.KernelIdeal.Frame
import proofs.«177607_j58978490909308_1_alg».proof.Proof.Gen.ReferenceIdeal
import proofs.«177607_j58978490909308_1_alg».proof.Proof.Gen.Pre_finite_inputs
import proofs.«177607_j58978490909308_1_alg».proof.Proof.KRun
import proofs.«177607_j58978490909308_1_alg».proof.Proof.KValue
import proofs.«177607_j58978490909308_1_alg».proof.Proof.RefRunP
import proofs.«177607_j58978490909308_1_alg».proof.Proof.RefSpec
import Idealize.ShloMosaic.Adequacy
import Idealize.ShloMosaic.Init

noncomputable section

namespace Cert.Proof

open Idealize.ShloMosaic Idealize.SL.Sem

/-- The common result: the network of the kernel program's inputs, on each device. -/
def result (m : (ℓ : Loc Cert.KernelIdeal.nD Cert.KernelIdeal.τ Cert.KernelIdeal.sig) → Buf (Elt Ideal) ℓ) (c : Dev Cert.KernelIdeal.nD) :
    Buf (Elt Ideal) ((c.tc : Thread Cert.KernelIdeal.nD Cert.KernelIdeal.τ).loc Cert.KernelIdeal.main_v68) :=
  Spec.network (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))
    (m ((c.tc : Thread Cert.KernelIdeal.nD Cert.KernelIdeal.τ).loc Cert.KernelIdeal.main_arg2)) (m ((c.tc : Thread Cert.KernelIdeal.nD Cert.KernelIdeal.τ).loc Cert.KernelIdeal.main_arg3))
    (m ((c.tc : Thread Cert.KernelIdeal.nD Cert.KernelIdeal.τ).loc Cert.KernelIdeal.main_arg4)) (m ((c.tc : Thread Cert.KernelIdeal.nD Cert.KernelIdeal.τ).loc Cert.KernelIdeal.main_arg5))
    (m ((c.tc : Thread Cert.KernelIdeal.nD Cert.KernelIdeal.τ).loc Cert.KernelIdeal.main_arg6)) (m ((c.tc : Thread Cert.KernelIdeal.nD Cert.KernelIdeal.τ).loc Cert.KernelIdeal.main_arg7))

/-- The kernel's program ends with the network in its result buffer and its inputs unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v68) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)) :=
  (θ_run Cert.KernelIdeal.defs _ _).mono (fun _ h c => ⟨(h c).1.trans (Cert.KernelIdeal.Network.result_eq m ρ c), (h c).2⟩)
    (Cert.KernelIdeal.GenP.run_result (F := Ideal) m ρ)

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.ValueP.run (F := Ideal) m ρ),
  trivial,
  fun m ρ m' ρ' _ hagree => ⟨result m, kernel_run m ρ,
    (θ_run Cert.ReferenceIdeal.defs _ _).mono (fun _ h c => ⟨by
        obtain ⟨a0, a1, a2, a3, a4, a5, a6, a7⟩ := hagree c
        refine (h c).1.trans ((Cert.RefSpec.result_eq m' c).trans ?_)
        rw [a0, a1, a2, a3, a4, a5, a6, a7]
        rfl, (h c).2⟩)
      (Cert.ReferenceIdeal.ValueP.run (F := Ideal) m' ρ')⟩⟩

end Cert.Proof

end
